-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x1024 : Shape := ⟨3, ![64, 32, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩

class Facts : Prop where
  bcast_S_S64x32x1024 : S_.BroadcastsInDim S64x32x1024 (![] : Fin 0 → Fin S64x32x1024.rank)
  reducesTo_S64x32x1024_S_d0_1_2 : S64x32x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 16#32
  let main_v18 : IVec S64 32 := broadcastInDim S64 ![] bcast_S_S64 main_c_6
  let main_v19 : IVec S64 1 := cmpi .slt main_arg1 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64x32x1024 .f32) (main_arg1 : IVec S64 32) (main_arg2 : FVec F S16x1024x4096 .f32) (main_arg3 : FVec F S16x4096 .f32) : IVec S_ 1 :=
  let main_v0 : FVec F S64x32x1024 .f32 := Host.absf main_arg0
  let main_cst : FVec F S_ .f32 := constant S_ .f32 0x7F800000#32
  let main_v1 : FVec F S64x32x1024 .f32 := broadcastInDim S64x32x1024 ![] bcast_S_S64x32x1024 main_cst
  let main_v2 : IVec S64x32x1024 1 := cmpf .olt main_v0 main_v1
  let main_c : IVec S_ 1 := constantI S_ 1 1#1
  let main_v3 : IVec S_ 1 := (fun x v => Host.reduce IntOp.andi x v reducesTo_S64x32x1024_S_d0_1_2 h_S_) main_v2 main_c
  let main_v4 : FVec F S16x1024x4096 .f32 := Host.absf main_arg2
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 1 := constantI S_ 1 1#1
  fn_part1 (F := F) main_arg1 main_v13 main_v15 main_c_5
-- ==== Kernel.lean ====
abbrev S64x32x1024 : Shape := ⟨3, ![64, 32, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S16x1x4096 : Shape := ⟨3, ![16, 1, 4096]⟩
abbrev S64x32x4096 : Shape := ⟨3, ![64, 32, 4096]⟩
abbrev S1x1024x1024 : Shape := ⟨3, ![1, 1024, 1024]⟩
abbrev S1 : Shape := ⟨1, ![1]⟩
abbrev S1x1x1024 : Shape := ⟨3, ![1, 1, 1024]⟩
abbrev S1x32x1024 : Shape := ⟨3, ![1, 32, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S64x128x1024 : Shape := ⟨3, ![64, 128, 1024]⟩

abbrev nBuf : Space → Nat
  | .hbm => 25
  | .vmem => 7
  | .smem => 2
  | _ => 0

abbrev bufTy : (tb : Table) → Fin (tcTables nBuf tb) → BufTy
  | .hbm, ⟨0, _⟩ => ⟨S64x32x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S16x1x4096, .f32⟩
  | .hbm, ⟨23, _⟩ => ⟨S64x32x4096, .f32⟩
  | .hbm, ⟨24, _⟩ => ⟨S64x128x1024, .f32⟩
  | .local _ .vmem, ⟨0, _⟩ => ⟨S64x32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | .local _ .smem, ⟨0, _⟩ => ⟨S64, .i32⟩
  | .local _ .smem, ⟨1, _⟩ => ⟨S64, .i32⟩
  | _, _ => ⟨S64x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v8 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 64], ![false, false]⟩

abbrev pre0 : Pipeline.Prefetch sig := ⟨2, ![main_v8.idx, main_v1.idx], fun | 0 => main_v8.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 3 → Nat :=
  let v2 : Index := Scalar.indexCast v1
  let c0 : Index := 0#32
  let c0_0 : Index := 0#32
  ![v2.toNat, 0, 0]

def k0_chk1 (v1 : BitVec 32) : Prop :=
  (∀ a, (k0_off2 v1) a + S1x32x1024.size a ≤ S64x32x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x32x1024.size a ≤ S64x32x1024.size a := fun v1 k0_hw1 => k0_hw1

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

abbrev stage0_0 : Fin 1 → Memref sig .tc .vmem S64x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S16x4096_S16x1x4096_0_2 : S16x4096.BroadcastsInDim S16x1x4096 (![0, 2] : Fin 2 → Fin S16x1x4096.rank)
  numel1_S1 : S1.numel = 1
  h_S1x32x1024 : 0 < S1x32x1024.numel
  shapeCasts_S1x32x1024_S32x1024 : S1x32x1024.ShapeCasts S32x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S32x1024 : S1x1024.Broadcasts S32x1024
  inb_S1x32x1024_S1x32x1024_0_0_0 : ∀ a, (![0, 0, 0] : Fin 3 → Nat) a + S1x32x1024.size a ≤ S1x32x1024.size a
  shapeCasts_S32x1024_S1x32x1024 : S32x1024.ShapeCasts S1x32x1024
  shapeCasts_S64x32x4096_S64x128x1024 : S64x32x4096.ShapeCasts S64x128x1024
  gather_S64_S64x1_S64_n_0_n_n_0_1_1_wf : GatherDims.WF S64 S64x1 S64 [] [0] [] [0] [] 1 ![1]
  dot_S32x1024_S1024x1024_S32x1024_1_0_0_1_n_n_wf : DotDims.WF S32x1024 S1024x1024 S32x1024 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x32x1024.size a ≤ S64x32x1024.size a
  hwx0_0 : ∀ i : grid0.Coords, EltTy.bits .f32 = 32 ∨ (Rect.block (s := S64x32x1024) S64x32x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev spec0_0 : Pipeline.WinSpec sig grid0.rank :=
  Pipeline.WinSpec.ofSpec (Memref.whole main_arg0) S64x32x1024.size reads0_0 false true 1 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v9) S1x1x1024.size reads0_2 false false 2 stage0_2 sem0_2 nbuf0_2 hstage0_2

abbrev spec0_3 : Pipeline.WinSpec sig grid0.rank :=
  Pipeline.WinSpec.ofSpec (Memref.whole main_v10) S1x32x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S16x1024x4096.size a), EltTy.bits .f32 = 32 ∨ (Rect.block (s := S16x1024x4096) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S16x1x4096.size a), EltTy.bits .f32 = 32 ∨ (Rect.block (s := S16x1x4096) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x32x1024.size a ≤ S64x32x4096.size a), EltTy.bits .f32 = 32 ∨ (Rect.block (s := S64x32x4096) S1x32x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x32x1024 : Shape := ⟨3, ![64, 32, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S64x1024x4096 : Shape := ⟨3, ![64, 1024, 4096]⟩
abbrev S64x4096 : Shape := ⟨2, ![64, 4096]⟩
abbrev S64x1x4096 : Shape := ⟨3, ![64, 1, 4096]⟩
abbrev S64x32x4096 : Shape := ⟨3, ![64, 32, 4096]⟩
abbrev S64x128x1024 : Shape := ⟨3, ![64, 128, 1024]⟩

abbrev nBuf : Space → Nat
  | .hbm => 28
  | .vmem => 0
  | .smem => 0
  | _ => 0

abbrev bufTy : (tb : Table) → Fin (tcTables nBuf tb) → BufTy
  | .hbm, ⟨0, _⟩ => ⟨S64x32x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x4096, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x4096, .f32⟩
  | .hbm, ⟨22, _⟩ => ⟨S64x1x4096, .f32⟩
  | .hbm, ⟨23, _⟩ => ⟨S64x32x4096, .f32⟩
  | .hbm, ⟨24, _⟩ => ⟨S64x32x4096, .f32⟩
  | .hbm, ⟨25, _⟩ => ⟨S64x32x4096, .f32⟩
  | .hbm, ⟨26, _⟩ => ⟨S64x32x4096, .f32⟩
  | .hbm, ⟨27, _⟩ => ⟨S64x128x1024, .f32⟩
  | _, _ => ⟨S64x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x32x4096_0_1_2 : S64x1x4096.BroadcastsInDim S64x32x4096 (![0, 1, 2] : Fin 3 → Fin S64x32x4096.rank)
  shapeCasts_S64x32x4096_S64x128x1024 : S64x32x4096.ShapeCasts S64x128x1024
  gather_S16x1024x4096_S64x1_S64x1024x4096_12_0_n_n_0_1_110244096_wf : GatherDims.WF S16x1024x4096 S64x1 S64x1024x4096 [1, 2] [0] [] [0] [] 1 ![1, 1024, 4096]
  gather_S16x4096_S64x1_S64x4096_1_0_n_n_0_1_14096_wf : GatherDims.WF S16x4096 S64x1 S64x4096 [1] [0] [] [0] [] 1 ![1, 4096]
  dot_S64x32x1024_S64x1024x4096_S64x32x4096_2_1_1_2_0_0_wf : DotDims.WF S64x32x1024 S64x1024x4096 S64x32x4096 [2] [1] [1] [2] [0] [0]

variable [Facts₀]

def gather_S16x1024x4096_S64x1_S64x1024x4096_12_0_n_n_0_1_110244096 : GatherDims S16x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S64x1_S64x1024x4096_12_0_n_n_0_1_110244096_wf
def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def dot_S64x32x1024_S64x1024x4096_S64x32x4096_2_1_1_2_0_0 : DotDims S64x32x1024 S64x1024x4096 S64x32x4096 where
  lhsContracting := [2]
  rhsContracting := [1]
  lhsNonContracting := [1]
  rhsNonContracting := [2]
  lhsBatch := [0]
  rhsBatch := [0]
  wf := dot_S64x32x1024_S64x1024x4096_S64x32x4096_2_1_1_2_0_0_wf

class Facts : Prop extends Facts₀ where

variable [Facts]
-- ==== Proof.Spec.lean ====
/-
  The function both programs compute, as one formula over the argument arrays.

  Sample j of the 64 carries a framework id ids[j]; the id names one of 16 weight matrices W[id] (1024 × 4096) and one of
  16 bias rows B[id] (4096). The result at (j, s, e) is

      tanh ( Σ_k enc[j, s, k] · W[ids[j], k, e]  +  B[ids[j], e] ),

  a per-sample matrix product followed by the bias and the hyperbolic tangent, over the extended reals. The 64 × 32 × 4096
  array so obtained is then relaid as 64 × 128 × 1024 without touching its row-major order.

  An id is `InRange` when, read as a signed integer, it lies in [0, 16): the domain on which "the id names a row" means the
  same thing to a reader that wraps negative ids (Python indexing) and to one that clamps them.
-/
import Idealize.ShloMosaic.PureOps.Ideal
import Idealize.ShloMosaic.Lib.ValueIdx

noncomputable section

namespace Cert.Routed

open Idealize.ShloMosaic Idealize.ShloMosaic.ValueIdx

abbrev SEnc : Shape := ⟨3, ![64, 32, 1024]⟩
abbrev SIds : Shape := ⟨1, ![64]⟩
abbrev SWt : Shape := ⟨3, ![16, 1024, 4096]⟩
abbrev SBias : Shape := ⟨2, ![16, 4096]⟩
abbrev SOut : Shape := ⟨3, ![64, 32, 4096]⟩

/-- Every framework id, read signed, lies in [0, 16). -/
def InRange (ids : IVec SIds 32) : Prop :=
  ∀ j : Fin 64, 0 ≤ (ids (ix1 j)).toInt ∧ (ids (ix1 j)).toInt < 16

/-- The table row sample `j`'s id names: its unsigned reading, held to the last row so that the definition is total
    (on `InRange` ids nothing is held back). -/
def row (ids : IVec SIds 32) (j : Fin 64) : Fin 16 := ⟨min (ids (ix1 j)).toNat 15, by omega⟩

/-- The routed projection at sample `j`, position `s`, output column `e`. -/
def projAt (enc : SEnc.Idx → EReal) (ids : IVec SIds 32) (wt : SWt.Idx → EReal) (bias : SBias.Idx → EReal)
    (j : Fin 64) (s : Fin 32) (e : Fin 4096) : EReal :=
  Ideal.tanh ((∑ k : Fin 1024, enc (ix3 j s k) * wt (ix3 (row ids j) k e)) + bias (ix2 (row ids j) e))

/-- The whole 64 × 32 × 4096 array. -/
def proj (enc : SEnc.Idx → EReal) (ids : IVec SIds 32) (wt : SWt.Idx → EReal) (bias : SBias.Idx → EReal) :
    SOut.Idx → EReal :=
  fun i => projAt enc ids wt bias ⟨(i 0).val, (i 0).isLt⟩ ⟨(i 1).val, (i 1).isLt⟩ ⟨(i 2).val, (i 2).isLt⟩

/-- On ids in range the named row is the id itself, read unsigned. -/
theorem row_val {ids : IVec SIds 32} (h : InRange ids) (j : Fin 64) : (row ids j).val = (ids (ix1 j)).toNat := by
  have hj := h j
  have h32 := (ids (ix1 j)).isLt
  show min (ids (ix1 j)).toNat 15 = _
  have : (ids (ix1 j)).toNat < 16 := by
    unfold BitVec.toInt at hj
    split at hj <;> omega
  omega

/-- An id in range, read unsigned, is below 16 (and so below 2³¹: its signed and unsigned readings agree). -/
theorem toNat_lt {ids : IVec SIds 32} (h : InRange ids) (j : Fin 64) : (ids (ix1 j)).toNat < 16 := by
  have hj := h j
  have h32 := (ids (ix1 j)).isLt
  unfold BitVec.toInt at hj
  split at hj <;> omega

end Cert.Routed

end
-- ==== Proof.PreRange.lean ====
/-
  The precondition, read: beside the finiteness of the three float arrays it says that every framework id, read signed,
  lies in [0, 16) — the two closing conjuncts "all ids ≥ 0" and "all ids < 16", each a conjunction over the 64 ids.
-/
import proofs.«422440_j27307402068744_3_alg».proof.Pre_finite_inputs
import proofs.«422440_j27307402068744_3_alg».proof.Proof.Spec
import Idealize.ShloMosaic.Lib.ReduceAll

noncomputable section

namespace Cert.PreRange

open Idealize.ShloMosaic Idealize.ShloMosaic.ValueIdx

/-- Where the precondition evaluates to true, the ids are in range (whatever the float arrays hold, at any float model). -/
theorem ids_inRange {F : FTy → Type} [FloatOps F] [Cert.Pre_finite_inputs.Facts]
    (a0 : FVec F Cert.Pre_finite_inputs.S64x32x1024 .f32) (ids : IVec Cert.Pre_finite_inputs.S64 32)
    (a2 : FVec F Cert.Pre_finite_inputs.S16x1024x4096 .f32) (a3 : FVec F Cert.Pre_finite_inputs.S16x4096 .f32)
    (h : Cert.Pre_finite_inputs.fn (F := F) a0 ids a2 a3 = fun _ => 1#1) : Cert.Routed.InRange ids := by
  intro j
  -- a rank-0 array has a single index
  haveI : Subsingleton Cert.Pre_finite_inputs.S_.Idx := ⟨fun a b => funext fun d => d.elim0⟩
  -- the claim at that single index, with the chain of lets opened
  have e := congrFun h ix0
  unfold Cert.Pre_finite_inputs.fn Cert.Pre_finite_inputs.fn_part1 at e
  dsimp only at e
  -- the outer conjunction: (floats finite ∧ all ids ≥ 0) ∧ all ids < 16; the float conjunct is dropped unread
  obtain ⟨e1, eLt⟩ := IntOp.andi_eq_one.1 e
  obtain ⟨-, eGe⟩ := IntOp.andi_eq_one.1 e1
  -- a conjunction over the 64 positions that holds, holds at position j
  have hge := Host.reduce_andi_all _ _ _ _ _ eGe (ix1 j)
  have hlt := Host.reduce_andi_all _ _ _ _ _ eLt (ix1 j)
  -- the broadcast of a constant reads as the constant; the comparison words, read signed
  simp only [cmpi, broadcastInDim, constantI] at hge hlt
  rw [IntOp.cmpi_sge] at hge
  rw [IntOp.cmpi_slt] at hlt
  have z : (0#32 : BitVec 32).toInt = 0 := by decide
  have s : (16#32 : BitVec 32).toInt = 16 := by decide
  rw [z] at hge
  rw [s] at hlt
  exact ⟨hge, hlt⟩

end Cert.PreRange

end
-- ==== Proof.LibArgsort.lean ====
/-
  Word-level facts about a stable argsort and the reads made through it.

  * The stable argsort of n words (a two-operand sort carrying the positions 0 … n−1) lists every position exactly once:
    it is a bijection π of the positions, entry b holding the word for π b.
  * An index word whose top bit is clear is unchanged by the Python-style wrap "add the length if negative".
  * A word that, read signed, lies in [0, 16) is unchanged by clamping into [0, 15].
  * Reading a table through a column of such index words returns the table's entry at the index.
-/
import Idealize.ShloMosaic.Lib.SortFacts
import Idealize.ShloMosaic.Lib.StableHlo.Predicate
import Idealize.ShloMosaic.Lib.ValueIdx

noncomputable section

namespace Cert.LibArgsort

open Idealize.ShloMosaic Idealize.ShloMosaic.ValueIdx

/-- The rank-1 index written by cases on the axis is the rank-1 index written from the coordinate's value. -/
private theorem ix1_eq_ofFin {m : Nat} (k : Fin m) : ix1 k = Shape.Idx.ofFin k := by
  funext d
  match d with
  | ⟨0, _⟩ => rfl

/-- Read signed, the words 0 and 15 are 0 and 15. -/
private theorem toInt_zero32 : (0#32 : BitVec 32).toInt = 0 := by decide
private theorem toInt_fifteen32 : (15#32 : BitVec 32).toInt = 15 := by decide

/-- The positions a stable argsort writes are a bijection of the positions. -/
theorem argsort_perm {n : Nat} (cmp : BitVec 32 × BitVec 32 → BitVec 32 × BitVec 32 → BitVec 1)
    (x : IVec (⟨1, ![n]⟩ : Shape) 32) :
    ∃ π : Fin n → Fin n, Function.Bijective π ∧
      ∀ b : Fin n, (Host.sort2 (⟨1, ![n]⟩ : Shape) 0 cmp x (iotaInDim (⟨1, ![n]⟩ : Shape) 32 0)).2 (ix1 b)
        = BitVec.ofNat 32 (π b).val := by
  -- On a rank-1 shape the fiber through any index is the whole table, so the comparison of two positions is one fixed
  -- relation on the positions, and the sort reads the carried positions through its stable sorting permutation.
  refine ⟨sortedFrom (n := n) (fun k k' =>
      cmp (x (Shape.Idx.ofFin k), iotaInDim (⟨1, ![n]⟩ : Shape) 32 0 (Shape.Idx.ofFin k))
        (x (Shape.Idx.ofFin k'), iotaInDim (⟨1, ![n]⟩ : Shape) 32 0 (Shape.Idx.ofFin k')) == 1#1),
    ⟨sortedFrom_injective _, sortedFrom_surjective _⟩, ?_⟩
  intro b
  unfold Host.sort2
  simp only [Order.lt_one_iff, ↓reduceDIte, Fin.zero_eta, Fin.isValue, Matrix.cons_val_zero,
    Shape.Idx.along_rank1]
  -- the carried word at position k is the word k
  exact congrArg (BitVec.ofNat 32) (congrArg Fin.val (Shape.Idx.ofFin_zero _))

/-- A word with its top bit clear is not negative, so "add the length if negative" leaves it alone. -/
theorem wrap_of_small (w n : BitVec 32) (h : w.toNat < 2 ^ 31) :
    Scalar.select (IntOp.cmpi .slt w 0#32) (IntOp.addi w n) w = w := by
  -- read signed, a word below 2^31 is its unsigned value, which is not below 0
  have hslt : w.slt 0#32 = false := by
    simp only [BitVec.slt, toInt_zero32, decide_eq_false_iff_not, not_lt]
    unfold BitVec.toInt
    split <;> omega
  have hc : IntOp.cmpi .slt w 0#32 = 0#1 := by
    show BitVec.ofBool (w.slt 0#32) = 0#1
    rw [hslt]
    rfl
  rw [hc, select_zero]

/-- A word in [0, 16) read signed is unchanged by the clamp into [0, 15]. -/
theorem clip_of_inRange (w : BitVec 32) (h0 : 0 ≤ w.toInt) (h1 : w.toInt < 16) :
    IntOp.minsi 15#32 (IntOp.maxsi 0#32 w) = w := by
  -- the larger of 0 and w is w, since w is not below 0
  have hmax : IntOp.maxsi 0#32 w = w := by
    unfold IntOp.maxsi
    rw [if_neg]
    simp only [BitVec.slt, toInt_zero32, decide_eq_true_eq, not_lt]
    exact h0
  -- the smaller of 15 and w is w, since 15 is not below w
  rw [hmax]
  unfold IntOp.minsi
  rw [if_neg]
  simp only [BitVec.slt, toInt_fifteen32, decide_eq_true_eq, not_lt]
  omega

/-- A table of N entries read through the [n × 1] column laid out from n index words: where word p names entry q, the
    read at p is the table's entry q. -/
theorem take_column {α : Type} {N n : Nat} (d : GatherDims (⟨1, ![N]⟩ : Shape) (⟨2, ![n, 1]⟩ : Shape) (⟨1, ![n]⟩ : Shape))
    (hcoll : d.collapsedSliceDims = [0]) (hob : d.operandBatchingDims = [])
    (hsim : d.startIndexMap = [0]) (hivd : d.indexVectorDim = 1)
    (hb : (⟨1, ![n]⟩ : Shape).BroadcastsInDim (⟨2, ![n, 1]⟩ : Shape) ![0])
    (x : (⟨1, ![N]⟩ : Shape).Idx → α) (idx : IVec (⟨1, ![n]⟩ : Shape) 32) (p : Fin n) (q : Fin N)
    (hq : idx (ix1 p) = BitVec.ofNat 32 q.val) (hN : N < 2 ^ 31) :
    Host.gather d x (broadcastInDim (⟨2, ![n, 1]⟩ : Shape) ![0] hb idx) (ix1 p) = x (ix1 q) := by
  have hqlt : q.val < N := q.isLt
  have hN0 : 0 < N := by omega
  -- the word q, read unsigned and read signed, is the number q: it is below N, which is below 2^31
  have htn : (BitVec.ofNat 32 q.val).toNat = q.val := by
    rw [BitVec.toNat_ofNat]
    exact Nat.mod_eq_of_lt (by omega)
  have hti : (BitVec.ofNat 32 q.val).toInt.toNat = q.val := by
    unfold BitVec.toInt
    rw [htn]
    split <;> omega
  -- the read at p is the table at the column's word at (p, 0), read signed and clamped; that word is the index word at p
  have hw : broadcastInDim (⟨2, ![n, 1]⟩ : Shape) ![0] hb idx (StableHlo.Predicate.ixP p) = BitVec.ofNat 32 q.val := by
    rw [StableHlo.Predicate.bcast_col1 hb idx p, ← ix1_eq_ofFin p, hq]
  rw [ix1_eq_ofFin p, StableHlo.Predicate.gather_take d hcoll hob hsim hivd x _ p hN0, ix1_eq_ofFin q]
  refine congrArg x (congrArg Shape.Idx.ofFin (Fin.ext ?_))
  show min (broadcastInDim (⟨2, ![n, 1]⟩ : Shape) ![0] hb idx (StableHlo.Predicate.ixP p)).toInt.toNat (N - 1) = q.val
  rw [hw, hti]
  omega

end Cert.LibArgsort

end
-- ==== Proof.TablesK.lean ====
/-
  The two prefetched tables of the word-level kernel, as functions of the launched framework ids.

  Before the grid runs, the host clamps the ids into [0, 15], argsorts the clamped ids (a stable sort carrying the
  positions 0 … 63) and looks the clamped ids up at the sorted positions. Table 1 holds the sorted positions, table 0
  the clamped ids in sorted order. On ids already in [0, 16) the clamp does nothing, the sorted positions are a
  bijection π of the 64 samples, and table 0 at b is the id of sample π b: the grid visits every sample exactly once,
  in an order that groups equal ids.
-/
import proofs.«422440_j27307402068744_3_alg».proof.Proof.Gen.Kernel.Frame
import proofs.«422440_j27307402068744_3_alg».proof.Proof.LibArgsort
import proofs.«422440_j27307402068744_3_alg».proof.Proof.Spec
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx

variable {F : FTy → Type} [FloatOps F] (m : (ℓ : Loc nD τ sig) → Buf (Elt F) ℓ)

/-- The framework ids as launched (the program runs on one device). -/
abbrev ids : IVec S64 32 := m (((0 : Dev nD) : Thread nD τ).loc main_arg1)

/-- The ids clamped into [0, 15]: first raised to 0, then lowered to 15. -/
def clamped (x : IVec S64 32) : IVec S64 32 :=
  minsi (broadcastInDim S64 ![] bcast_S_S64 (constantI S_ 32 15#32))
    (maxsi (broadcastInDim S64 ![] bcast_S_S64 (constantI S_ 32 0#32)) x)

/-- The positions a stable argsort of `x` writes. -/
def order (x : IVec S64 32) : IVec S64 32 :=
  (Host.sort2 S64 0 comparator_i32_i32_d0 x (iotaInDim S64 32 0)).2

/-- A position made non-negative the Python way: 64 added where it reads negative. -/
def wrapped (p : IVec S64 32) : IVec S64 32 :=
  select (cmpi .slt p (broadcastInDim S64 ![] bcast_S_S64 (constantI S_ 32 0#32)))
    (addi p (broadcastInDim S64 ![] bcast_S_S64 (constantI S_ 32 64#32))) p

/-- Table 1 is the argsort of the clamped ids. -/
theorem tbl1_eq : (tbl m 1 : IVec S64 32) = order (clamped (ids m)) := by
  unfold tbl
  show V m 0 main_v1 = _
  unfold V V0
  simp only [hostOps0, hostOps0_1, hostOps0_2, hostOps0_3, List.flatten_cons, List.flatten_nil, List.append_nil,
    List.cons_append, List.nil_append]
  after_results
  rfl

set_option maxHeartbeats 4000000 in
/-- Table 0 is the clamped ids looked up at the (wrapped) sorted positions. -/
theorem tbl0_eq : (tbl m 0 : IVec S64 32)
    = Host.gather gather_S64_S64x1_S64_n_0_n_n_0_1_1 (clamped (ids m))
        (broadcastInDim S64x1 ![0] bcast_S64_S64x1_0 (wrapped (order (clamped (ids m))))) := by
  unfold tbl
  show V m 0 main_v8 = _
  unfold V V0
  simp only [hostOps0, hostOps0_1, hostOps0_2, hostOps0_3, List.flatten_cons, List.flatten_nil, List.append_nil,
    List.cons_append, List.nil_append]
  after_results
  rfl

/-- On ids in range the clamp is the identity. -/
theorem clamped_of_inRange {x : IVec S64 32} (h : Cert.Routed.InRange x) : clamped x = x := by
  funext i
  obtain ⟨j, rfl⟩ : ∃ j : Fin 64, i = ix1 j := ⟨i 0, eq_ix1 i⟩
  exact Cert.LibArgsort.clip_of_inRange (x (ix1 j)) (h j).1 (h j).2

/-- THE TABLES ON IDS IN RANGE: a bijection π of the samples with table 1 at b the word π b and table 0 at b the id of
    sample π b. -/
theorem tables (h : Cert.Routed.InRange (ids m)) :
    ∃ π : Fin 64 → Fin 64, Function.Bijective π ∧
      ∀ b : Fin 64, (tbl m 1 : IVec S64 32) (ix1 b) = BitVec.ofNat 32 (π b).val
        ∧ (tbl m 0 : IVec S64 32) (ix1 b) = ids m (ix1 (π b)) := by
  obtain ⟨π, hπ, hord⟩ := Cert.LibArgsort.argsort_perm comparator_i32_i32_d0 (ids m)
  have hord' : ∀ b : Fin 64, order (ids m) (ix1 b) = BitVec.ofNat 32 (π b).val := hord
  have hwrap : wrapped (order (ids m)) = order (ids m) := by
    funext i
    obtain ⟨b, rfl⟩ : ∃ b : Fin 64, i = ix1 b := ⟨i 0, eq_ix1 i⟩
    refine Cert.LibArgsort.wrap_of_small (order (ids m) (ix1 b)) 64#32 ?_
    rw [hord' b]
    have := (π b).isLt
    simp only [BitVec.toNat_ofNat]
    omega
  refine ⟨π, hπ, fun b => ⟨?_, ?_⟩⟩
  · rw [tbl1_eq, clamped_of_inRange h]; exact hord' b
  · rw [tbl0_eq, clamped_of_inRange h, hwrap]
    exact Cert.LibArgsort.take_column gather_S64_S64x1_S64_n_0_n_n_0_1_1 rfl rfl rfl rfl bcast_S64_S64x1_0 (ids m)
      (order (ids m)) b (π b) (hord' b) (by norm_num)

end Cert.Kernel.Tables

end
-- ==== Proof.OkHypsK.lean ====
/-
  The two side conditions the word-level kernel's generated frame is stated under, from ids in range.

  The pipeline asks that every block whose position an index map reads off a table lie inside its array: the weight and
  bias blocks sit at row (table 0 word) of 16 rows, the output block at sample (table 1 word) of 64 samples, and all three
  at chunk n of 4 chunks. The body asks that the sample it loads rows from, the table 1 word again, be one of the 64.
  On ids in range table 0 holds ids (below 16) and table 1 holds positions (below 64); the chunk number is a grid
  coordinate (below 4). That is all either condition says.
-/
import proofs.«422440_j27307402068744_3_alg».proof.Proof.TablesK

set_option maxRecDepth 16384

noncomputable section

namespace Cert.Kernel.OkHyps

open Cert.Kernel Cert.Kernel.Gen Cert.Kernel.Tables
open Idealize.ShloMosaic Idealize.ShloMosaic.TcCoe Idealize.SL.Sem
open Idealize.ShloMosaic.ValueIdx

variable {F : FTy → Type} [FloatOps F] (m : (ℓ : Loc nD τ sig) → Buf (Elt F) ℓ)

/-- A small number written as a 32-bit word and read back is itself. -/
theorem word_toNat (k : Nat) (hk : k < 2 ^ 32) : (BitVec.ofNat 32 k).toNat = k := by
  rw [BitVec.toNat_ofNat]; exact Nat.mod_eq_of_lt hk

/-- Every word of table 0 is below 16, every word of table 1 below 64. -/
theorem words_lt (h : Cert.Routed.InRange (ids m)) (x : S64.Idx) :
    ((tbl m 0 : IVec S64 32) x).toNat < 16 ∧ ((tbl m 1 : IVec S64 32) x).toNat < 64 := by
  obtain ⟨π, -, hπ⟩ := tables m h
  obtain ⟨b, rfl⟩ : ∃ b : Fin 64, x = ix1 b := ⟨x 0, eq_ix1 x⟩
  obtain ⟨h1, h0⟩ := hπ b
  refine ⟨?_, ?_⟩
  · rw [h0]; exact Cert.Routed.toNat_lt h (π b)
  · rw [h1, word_toNat _ (by have := (π b).isLt; omega)]; exact (π b).isLt

/-- A block at row w of 16, chunk n of 4, of the weight array. -/
theorem weight_block_inb (w : BitVec 32) (hw : w.toNat < 16) (n : Nat) (hn : n < 4) :
    ∀ a, ((![w.toNat, 0, n] : Fin 3 → Nat) a + 1) * S1x1024x1024.size a ≤ S16x1024x4096.size a := by
  intro a
  fin_cases a
  · show (w.toNat + 1) * 1 ≤ 16; omega
  · show (0 + 1) * 1024 ≤ 1024; omega
  · show (n + 1) * 1024 ≤ 4096; omega

/-- A block at row w of 16, chunk n of 4, of the bias array. -/
theorem bias_block_inb (w : BitVec 32) (hw : w.toNat < 16) (n : Nat) (hn : n < 4) :
    ∀ a, ((![w.toNat, 0, n] : Fin 3 → Nat) a + 1) * S1x1x1024.size a ≤ S16x1x4096.size a := by
  intro a
  fin_cases a
  · show (w.toNat + 1) * 1 ≤ 16; omega
  · show (0 + 1) * 1 ≤ 1; omega
  · show (n + 1) * 1024 ≤ 4096; omega

/-- A block at sample w of 64, chunk n of 4, of the output array. -/
theorem out_block_inb (w : BitVec 32) (hw : w.toNat < 64) (n : Nat) (hn : n < 4) :
    ∀ a, ((![w.toNat, 0, n] : Fin 3 → Nat) a + 1) * S1x32x1024.size a ≤ S64x32x4096.size a := by
  intro a
  fin_cases a
  · show (w.toNat + 1) * 1 ≤ 64; omega
  · show (0 + 1) * 32 ≤ 32; omega
  · show (n + 1) * 1024 ≤ 4096; omega

/-- THE PIPELINE'S SIDE CONDITION. -/
theorem ok_of_inRange (h : Cert.Routed.InRange (ids m)) : Ok m := by
  have hn : ∀ i : grid0.Coords, (BitVec.ofNat 32 (i 0).val).toNat < 4 := fun i => by
    have h4 : (i 0).val < 4 := (i 0).isLt
    rw [word_toNat _ (by omega)]; exact h4
  refine ⟨fun i => ?_, fun i => ?_, fun i => ?_⟩
  · obtain ⟨w, hw, e⟩ : ∃ w : BitVec 32, w.toNat < 16 ∧
        cc0_transform_1 k0_off1_inb numel1_S1 (tbl m) i = ![w.toNat, 0, (BitVec.ofNat 32 (i 0).val).toNat] :=
      ⟨_, (words_lt m h _).1, rfl⟩
    refine ⟨?_, Or.inl rfl⟩
    rw [e]; exact weight_block_inb w hw _ (hn i)
  · obtain ⟨w, hw, e⟩ : ∃ w : BitVec 32, w.toNat < 16 ∧
        cc0_transform_2 k0_off1_inb numel1_S1 (tbl m) i = ![w.toNat, 0, (BitVec.ofNat 32 (i 0).val).toNat] :=
      ⟨_, (words_lt m h _).1, rfl⟩
    refine ⟨?_, Or.inl rfl⟩
    rw [e]; exact bias_block_inb w hw _ (hn i)
  · obtain ⟨w, hw, e⟩ : ∃ w : BitVec 32, w.toNat < 64 ∧
        cc0_transform_3 k0_off1_inb numel1_S1 (tbl m) i = ![w.toNat, 0, (BitVec.ofNat 32 (i 0).val).toNat] :=
      ⟨_, (words_lt m h _).2, rfl⟩
    refine ⟨?_, Or.inl rfl⟩
    rw [e]; exact out_block_inb w hw _ (hn i)

/-- The rows of sample w of 64 lie inside the resident 64 × 32 × 1024 array. -/
theorem rows_inb (w : BitVec 32) (hw : w.toNat < 64) : k0_chk1 w := by
  intro a
  have e : (Scalar.indexCast w).toNat = w.toNat := rfl
  fin_cases a
  · show (Scalar.indexCast w).toNat + 1 ≤ 64; omega
  · show 0 + 32 ≤ 32; omega
  · show 0 + 1024 ≤ 1024; omega

/-- THE BODY'S SIDE CONDITION, at every point. -/
theorem hyps_of_inRange (h : Cert.Routed.InRange (ids m)) (hO : Ok m) : Hyps m hO := by
  intro c t
  obtain ⟨w, hw, e⟩ : ∃ w : BitVec 32, w.toNat < 64 ∧
      tbM0_1.view.readAt (Elt F) (Rect.unit (s := S64) (k0_off1 (grid0.coords t)) S1.size (k0_off1_inb (grid0.coords t))).toLoadRect
        (tbl m 1) (Shape.Idx.first (numel1_S1.symm ▸ Nat.one_pos)) = w :=
    ⟨_, (words_lt m h _).2, rfl⟩
  rw [e]; exact rows_inb w hw

end Cert.Kernel.OkHyps

end
-- ==== Proof.TablesI.lean ====
/-
  The two prefetched tables of the idealized kernel, as functions of the launched framework ids.

  Before the grid runs, the host clamps the ids into [0, 15], argsorts the clamped ids (a stable sort carrying the
  positions 0 … 63) and looks the clamped ids up at the sorted positions. Table 1 holds the sorted positions, table 0
  the clamped ids in sorted order. On ids already in [0, 16) the clamp does nothing, the sorted positions are a
  bijection π of the 64 samples, and table 0 at b is the id of sample π b: the grid visits every sample exactly once,
  in an order that groups equal ids.
-/
import proofs.«422440_j27307402068744_3_alg».proof.Proof.Gen.KernelIdeal.Frame
import proofs.«422440_j27307402068744_3_alg».proof.Proof.LibArgsort
import proofs.«422440_j27307402068744_3_alg».proof.Proof.Spec
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F] (m : (ℓ : Loc nD τ sig) → Buf (Elt F) ℓ)

/-- The framework ids as launched (the program runs on one device). -/
abbrev ids : IVec S64 32 := m (((0 : Dev nD) : Thread nD τ).loc main_arg1)

/-- The ids clamped into [0, 15]: first raised to 0, then lowered to 15. -/
def clamped (x : IVec S64 32) : IVec S64 32 :=
  minsi (broadcastInDim S64 ![] bcast_S_S64 (constantI S_ 32 15#32))
    (maxsi (broadcastInDim S64 ![] bcast_S_S64 (constantI S_ 32 0#32)) x)

/-- The positions a stable argsort of `x` writes. -/
def order (x : IVec S64 32) : IVec S64 32 :=
  (Host.sort2 S64 0 comparator_i32_i32_d0 x (iotaInDim S64 32 0)).2

/-- A position made non-negative the Python way: 64 added where it reads negative. -/
def wrapped (p : IVec S64 32) : IVec S64 32 :=
  select (cmpi .slt p (broadcastInDim S64 ![] bcast_S_S64 (constantI S_ 32 0#32)))
    (addi p (broadcastInDim S64 ![] bcast_S_S64 (constantI S_ 32 64#32))) p

/-- Table 1 is the argsort of the clamped ids. -/
theorem tbl1_eq : (tbl m 1 : IVec S64 32) = order (clamped (ids m)) := by
  unfold tbl
  show V m 0 main_v1 = _
  unfold V V0
  simp only [hostOps0, hostOps0_1, hostOps0_2, hostOps0_3, List.flatten_cons, List.flatten_nil, List.append_nil,
    List.cons_append, List.nil_append]
  after_results
  rfl

set_option maxHeartbeats 4000000 in
/-- Table 0 is the clamped ids looked up at the (wrapped) sorted positions. -/
theorem tbl0_eq : (tbl m 0 : IVec S64 32)
    = Host.gather gather_S64_S64x1_S64_n_0_n_n_0_1_1 (clamped (ids m))
        (broadcastInDim S64x1 ![0] bcast_S64_S64x1_0 (wrapped (order (clamped (ids m))))) := by
  unfold tbl
  show V m 0 main_v8 = _
  unfold V V0
  simp only [hostOps0, hostOps0_1, hostOps0_2, hostOps0_3, List.flatten_cons, List.flatten_nil, List.append_nil,
    List.cons_append, List.nil_append]
  after_results
  rfl

/-- On ids in range the clamp is the identity. -/
theorem clamped_of_inRange {x : IVec S64 32} (h : Cert.Routed.InRange x) : clamped x = x := by
  funext i
  obtain ⟨j, rfl⟩ : ∃ j : Fin 64, i = ix1 j := ⟨i 0, eq_ix1 i⟩
  exact Cert.LibArgsort.clip_of_inRange (x (ix1 j)) (h j).1 (h j).2

/-- THE TABLES ON IDS IN RANGE: a bijection π of the samples with table 1 at b the word π b and table 0 at b the id of
    sample π b. -/
theorem tables (h : Cert.Routed.InRange (ids m)) :
    ∃ π : Fin 64 → Fin 64, Function.Bijective π ∧
      ∀ b : Fin 64, (tbl m 1 : IVec S64 32) (ix1 b) = BitVec.ofNat 32 (π b).val
        ∧ (tbl m 0 : IVec S64 32) (ix1 b) = ids m (ix1 (π b)) := by
  obtain ⟨π, hπ, hord⟩ := Cert.LibArgsort.argsort_perm comparator_i32_i32_d0 (ids m)
  have hord' : ∀ b : Fin 64, order (ids m) (ix1 b) = BitVec.ofNat 32 (π b).val := hord
  have hwrap : wrapped (order (ids m)) = order (ids m) := by
    funext i
    obtain ⟨b, rfl⟩ : ∃ b : Fin 64, i = ix1 b := ⟨i 0, eq_ix1 i⟩
    refine Cert.LibArgsort.wrap_of_small (order (ids m) (ix1 b)) 64#32 ?_
    rw [hord' b]
    have := (π b).isLt
    simp only [BitVec.toNat_ofNat]
    omega
  refine ⟨π, hπ, fun b => ⟨?_, ?_⟩⟩
  · rw [tbl1_eq, clamped_of_inRange h]; exact hord' b
  · rw [tbl0_eq, clamped_of_inRange h, hwrap]
    exact Cert.LibArgsort.take_column gather_S64_S64x1_S64_n_0_n_n_0_1_1 rfl rfl rfl rfl bcast_S64_S64x1_0 (ids m)
      (order (ids m)) b (π b) (hord' b) (by norm_num)

end Cert.KernelIdeal.Tables

end
-- ==== Proof.OkHypsI.lean ====
/-
  The two side conditions the idealized kernel's generated frame is stated under, from ids in range.

  The pipeline asks that every block whose position an index map reads off a table lie inside its array: the weight and
  bias blocks sit at row (table 0 word) of 16 rows, the output block at sample (table 1 word) of 64 samples, and all three
  at chunk n of 4 chunks. The body asks that the sample it loads rows from, the table 1 word again, be one of the 64.
  On ids in range table 0 holds ids (below 16) and table 1 holds positions (below 64); the chunk number is a grid
  coordinate (below 4). That is all either condition says.
-/
import proofs.«422440_j27307402068744_3_alg».proof.Proof.TablesI

set_option maxRecDepth 16384

noncomputable section

namespace Cert.KernelIdeal.OkHyps

open Cert.KernelIdeal Cert.KernelIdeal.Gen Cert.KernelIdeal.Tables
open Idealize.ShloMosaic Idealize.ShloMosaic.TcCoe Idealize.SL.Sem
open Idealize.ShloMosaic.ValueIdx

variable {F : FTy → Type} [FloatOps F] (m : (ℓ : Loc nD τ sig) → Buf (Elt F) ℓ)

/-- A small number written as a 32-bit word and read back is itself. -/
theorem word_toNat (k : Nat) (hk : k < 2 ^ 32) : (BitVec.ofNat 32 k).toNat = k := by
  rw [BitVec.toNat_ofNat]; exact Nat.mod_eq_of_lt hk

/-- Every word of table 0 is below 16, every word of table 1 below 64. -/
theorem words_lt (h : Cert.Routed.InRange (ids m)) (x : S64.Idx) :
    ((tbl m 0 : IVec S64 32) x).toNat < 16 ∧ ((tbl m 1 : IVec S64 32) x).toNat < 64 := by
  obtain ⟨π, -, hπ⟩ := tables m h
  obtain ⟨b, rfl⟩ : ∃ b : Fin 64, x = ix1 b := ⟨x 0, eq_ix1 x⟩
  obtain ⟨h1, h0⟩ := hπ b
  refine ⟨?_, ?_⟩
  · rw [h0]; exact Cert.Routed.toNat_lt h (π b)
  · rw [h1, word_toNat _ (by have := (π b).isLt; omega)]; exact (π b).isLt

/-- A block at row w of 16, chunk n of 4, of the weight array. -/
theorem weight_block_inb (w : BitVec 32) (hw : w.toNat < 16) (n : Nat) (hn : n < 4) :
    ∀ a, ((![w.toNat, 0, n] : Fin 3 → Nat) a + 1) * S1x1024x1024.size a ≤ S16x1024x4096.size a := by
  intro a
  fin_cases a
  · show (w.toNat + 1) * 1 ≤ 16; omega
  · show (0 + 1) * 1024 ≤ 1024; omega
  · show (n + 1) * 1024 ≤ 4096; omega

/-- A block at row w of 16, chunk n of 4, of the bias array. -/
theorem bias_block_inb (w : BitVec 32) (hw : w.toNat < 16) (n : Nat) (hn : n < 4) :
    ∀ a, ((![w.toNat, 0, n] : Fin 3 → Nat) a + 1) * S1x1x1024.size a ≤ S16x1x4096.size a := by
  intro a
  fin_cases a
  · show (w.toNat + 1) * 1 ≤ 16; omega
  · show (0 + 1) * 1 ≤ 1; omega
  · show (n + 1) * 1024 ≤ 4096; omega

/-- A block at sample w of 64, chunk n of 4, of the output array. -/
theorem out_block_inb (w : BitVec 32) (hw : w.toNat < 64) (n : Nat) (hn : n < 4) :
    ∀ a, ((![w.toNat, 0, n] : Fin 3 → Nat) a + 1) * S1x32x1024.size a ≤ S64x32x4096.size a := by
  intro a
  fin_cases a
  · show (w.toNat + 1) * 1 ≤ 64; omega
  · show (0 + 1) * 32 ≤ 32; omega
  · show (n + 1) * 1024 ≤ 4096; omega

/-- THE PIPELINE'S SIDE CONDITION. -/
theorem ok_of_inRange (h : Cert.Routed.InRange (ids m)) : Ok m := by
  have hn : ∀ i : grid0.Coords, (BitVec.ofNat 32 (i 0).val).toNat < 4 := fun i => by
    have h4 : (i 0).val < 4 := (i 0).isLt
    rw [word_toNat _ (by omega)]; exact h4
  refine ⟨fun i => ?_, fun i => ?_, fun i => ?_⟩
  · obtain ⟨w, hw, e⟩ : ∃ w : BitVec 32, w.toNat < 16 ∧
        cc0_transform_1 k0_off1_inb numel1_S1 (tbl m) i = ![w.toNat, 0, (BitVec.ofNat 32 (i 0).val).toNat] :=
      ⟨_, (words_lt m h _).1, rfl⟩
    refine ⟨?_, Or.inl rfl⟩
    rw [e]; exact weight_block_inb w hw _ (hn i)
  · obtain ⟨w, hw, e⟩ : ∃ w : BitVec 32, w.toNat < 16 ∧
        cc0_transform_2 k0_off1_inb numel1_S1 (tbl m) i = ![w.toNat, 0, (BitVec.ofNat 32 (i 0).val).toNat] :=
      ⟨_, (words_lt m h _).1, rfl⟩
    refine ⟨?_, Or.inl rfl⟩
    rw [e]; exact bias_block_inb w hw _ (hn i)
  · obtain ⟨w, hw, e⟩ : ∃ w : BitVec 32, w.toNat < 64 ∧
        cc0_transform_3 k0_off1_inb numel1_S1 (tbl m) i = ![w.toNat, 0, (BitVec.ofNat 32 (i 0).val).toNat] :=
      ⟨_, (words_lt m h _).2, rfl⟩
    refine ⟨?_, Or.inl rfl⟩
    rw [e]; exact out_block_inb w hw _ (hn i)

/-- The rows of sample w of 64 lie inside the resident 64 × 32 × 1024 array. -/
theorem rows_inb (w : BitVec 32) (hw : w.toNat < 64) : k0_chk1 w := by
  intro a
  have e : (Scalar.indexCast w).toNat = w.toNat := rfl
  fin_cases a
  · show (Scalar.indexCast w).toNat + 1 ≤ 64; omega
  · show 0 + 32 ≤ 32; omega
  · show 0 + 1024 ≤ 1024; omega

/-- THE BODY'S SIDE CONDITION, at every point. -/
theorem hyps_of_inRange (h : Cert.Routed.InRange (ids m)) (hO : Ok m) : Hyps m hO := by
  intro c t
  obtain ⟨w, hw, e⟩ : ∃ w : BitVec 32, w.toNat < 64 ∧
      tbM0_1.view.readAt (Elt F) (Rect.unit (s := S64) (k0_off1 (grid0.coords t)) S1.size (k0_off1_inb (grid0.coords t))).toLoadRect
        (tbl m 1) (Shape.Idx.first (numel1_S1.symm ▸ Nat.one_pos)) = w :=
    ⟨_, (words_lt m h _).2, rfl⟩
  rw [e]; exact rows_inb w hw

end Cert.KernelIdeal.OkHyps

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.Payload.lean ====
/-
  The kernel body's arithmetic, read at one entry of the block it stores.

  At a grid point the body holds one sample's rows r (1 × 32 × 1024), one weight chunk w (1 × 1024 × 1024) and one bias
  chunk b (1 × 1 × 1024). It views r and w as matrices, multiplies them into a zero accumulator, adds the bias row to each
  of the 32 rows, applies the hyperbolic tangent and stores the result as a 1 × 32 × 1024 block. Over the extended reals
  the stored entry (0, s, e) is

      tanh ( Σ_k r[0, s, k] · w[0, k, e]  +  b[0, 0, e] ).

  The layout steps only rename indices: dropping or adding a leading axis of extent one keeps the row-major position,
  and the row laid along 32 rows reads its own column.
-/
import proofs.«422440_j27307402068744_3_alg».proof.Proof.Gen.KernelIdeal.Skeleton
import proofs.«422440_j27307402068744_3_alg».proof.Proof.LibPlainMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

variable {α : Type}

/-- The sample's rows viewed as a 32 × 1024 matrix: entry (s, k) is the block's (0, s, k). -/
theorem rows_as_matrix (r : S1x32x1024.Idx → α) (s : Fin 32) (k : Fin 1024) :
    shapeCast S32x1024 r shapeCasts_S1x32x1024_S32x1024 (ix2 s k) = r (ix3 (0 : Fin 1) s k) := by
  refine shapeCast_apply r shapeCasts_S1x32x1024_S32x1024 (ix2 s k) (ix3 (0 : Fin 1) s k) ?_
  rw [Shape.rowMajor_val_three, Shape.rowMajor_val_two]
  show (0 * 32 + s.val) * 1024 + k.val = s.val * 1024 + k.val
  omega

/-- The weight chunk viewed as a 1024 × 1024 matrix: entry (k, e) is the block's (0, k, e). -/
theorem chunk_as_matrix (w : S1x1024x1024.Idx → α) (k : Fin 1024) (e : Fin 1024) :
    shapeCast S1024x1024 w shapeCasts_S1x1024x1024_S1024x1024 (ix2 k e) = w (ix3 (0 : Fin 1) k e) := by
  refine shapeCast_apply w shapeCasts_S1x1024x1024_S1024x1024 (ix2 k e) (ix3 (0 : Fin 1) k e) ?_
  rw [Shape.rowMajor_val_three, Shape.rowMajor_val_two]
  show (0 * 1024 + k.val) * 1024 + e.val = k.val * 1024 + e.val
  omega

/-- The bias chunk viewed as a vector of 1024: entry e is the block's (0, 0, e). -/
theorem bias_as_vector (b : S1x1x1024.Idx → α) (e : Fin 1024) :
    shapeCast S1024 b shapeCasts_S1x1x1024_S1024 (ix1 e) = b (ix3 (0 : Fin 1) (0 : Fin 1) e) := by
  refine shapeCast_apply b shapeCasts_S1x1x1024_S1024 (ix1 e) (ix3 (0 : Fin 1) (0 : Fin 1) e) ?_
  rw [Shape.rowMajor_val_three, Shape.rowMajor_val_one]
  show (0 * 1 + 0) * 1024 + e.val = e.val
  omega

/-- A vector of 1024 viewed as one row: entry (0, e) is the vector's e. -/
theorem vector_as_row (v : S1024.Idx → α) (e : Fin 1024) :
    shapeCast S1x1024 v shapeCasts_S1024_S1x1024 (ix2 (0 : Fin 1) e) = v (ix1 e) := by
  refine shapeCast_apply v shapeCasts_S1024_S1x1024 (ix2 (0 : Fin 1) e) (ix1 e) ?_
  rw [Shape.rowMajor_val_two, Shape.rowMajor_val_one]
  show e.val = 0 * 1024 + e.val
  omega

/-- One row laid along 32 rows: entry (s, e) is the row's (0, e). -/
theorem row_along_rows (v : S1x1024.Idx → α) (s : Fin 32) (e : Fin 1024) :
    broadcastTo S32x1024 v broadcasts_S1x1024_S32x1024 (ix2 s e) = v (ix2 (0 : Fin 1) e) := by
  refine broadcastTo_apply v broadcasts_S1x1024_S32x1024 (ix2 s e) (ix2 (0 : Fin 1) e) (fun a => ?_)
  match a with
  | ⟨0, _⟩ => show (0 : Nat) = if (1 : Nat) = 1 then 0 else _; rw [if_pos rfl]
  | ⟨1, _⟩ => show e.val = if (1024 : Nat) = 1 then 0 else e.val; rw [if_neg (by decide)]

/-- A 32 × 1024 matrix stored as a 1 × 32 × 1024 block: entry (0, s, e) is the matrix's (s, e). -/
theorem matrix_as_block (x : S32x1024.Idx → α) (s : Fin 32) (e : Fin 1024) :
    shapeCast S1x32x1024 x shapeCasts_S32x1024_S1x32x1024 (ix3 (0 : Fin 1) s e) = x (ix2 s e) := by
  refine shapeCast_apply x shapeCasts_S32x1024_S1x32x1024 (ix3 (0 : Fin 1) s e) (ix2 s e) ?_
  rw [Shape.rowMajor_val_three, Shape.rowMajor_val_two]
  show s.val * 1024 + e.val = (0 * 32 + s.val) * 1024 + e.val
  omega

/-- The product of the two matrices into the zero accumulator, at (s, e): the sum over k of row entry times chunk entry. -/
theorem product_apply (x : FVec Ideal S32x1024 .f32) (y : FVec Ideal S1024x1024 .f32) (s : Fin 32) (e : Fin 1024) :
    matmul dot_S32x1024_S1024x1024_S32x1024_1_0_0_1_n_n none x y (constant (F := Ideal) S32x1024 .f32 0x00000000#32) (ix2 s e)
      = ∑ k : Fin 1024, x (ix2 s k) * y (ix2 k e) :=
  Cert.LibPlainMatmul.matmul_zero_apply 32 1024 1024 none x y s e

/-- THE STORED ENTRY: tanh of the row-by-chunk product plus the bias entry. -/
theorem pay_apply (r : Vec Ideal S1x32x1024 .f32) (w : Vec Ideal S1x1024x1024 .f32) (b : Vec Ideal S1x1x1024 .f32)
    (s : Fin 32) (e : Fin 1024) :
    k0_pay1 (F := Ideal) r w b (ix3 (0 : Fin 1) s e)
      = Ideal.tanh ((∑ k : Fin 1024, r (ix3 (0 : Fin 1) s k) * w (ix3 (0 : Fin 1) k e))
          + b (ix3 (0 : Fin 1) (0 : Fin 1) e)) := by
  show shapeCast S1x32x1024 (tanh (addf
      (matmul dot_S32x1024_S1024x1024_S32x1024_1_0_0_1_n_n none (shapeCast S32x1024 r shapeCasts_S1x32x1024_S32x1024)
        (shapeCast S1024x1024 w shapeCasts_S1x1024x1024_S1024x1024) (constant (F := Ideal) S32x1024 .f32 0x00000000#32))
      (broadcastTo S32x1024 (shapeCast S1x1024 (shapeCast S1024 b shapeCasts_S1x1x1024_S1024) shapeCasts_S1024_S1x1024)
        broadcasts_S1x1024_S32x1024))) shapeCasts_S32x1024_S1x32x1024 (ix3 (0 : Fin 1) s e) = _
  rw [matrix_as_block]
  show Ideal.tanh (matmul dot_S32x1024_S1024x1024_S32x1024_1_0_0_1_n_n none (shapeCast S32x1024 r shapeCasts_S1x32x1024_S32x1024)
        (shapeCast S1024x1024 w shapeCasts_S1x1024x1024_S1024x1024) (constant (F := Ideal) S32x1024 .f32 0x00000000#32) (ix2 s e)
      + broadcastTo S32x1024 (shapeCast S1x1024 (shapeCast S1024 b shapeCasts_S1x1x1024_S1024) shapeCasts_S1024_S1x1024)
        broadcasts_S1x1024_S32x1024 (ix2 s e)) = _
  rw [product_apply, row_along_rows, vector_as_row, bias_as_vector]
  congr 2
  refine Finset.sum_congr rfl fun k _ => ?_
  rw [rows_as_matrix, chunk_as_matrix]

end Cert.KernelIdeal.Payload

end
-- ==== Proof.Blocks.lean ====
/-
  What one grid point writes.

  Point t = (n, b) of the 4 × 64 grid reads two table words: w₁ = table 1 at b (the sample it serves) and w₀ = table 0 at b
  (that sample's id). It loads the rows of sample w₁ from the resident 64 × 32 × 1024 array, is handed chunk n of weight
  matrix w₀ and of bias row w₀, and stores one 1 × 32 × 1024 block: by the payload's reading, entry (0, s, e) is
  tanh (Σ_k enc[w₁, s, k] · W[w₀, k, 1024 n + e] + B[w₀, 1024 n + e]).
-/
import proofs.«422440_j27307402068744_3_alg».proof.Proof.Gen.KernelIdeal.Frame
import proofs.«422440_j27307402068744_3_alg».proof.Proof.Payload

set_option maxRecDepth 16384

noncomputable section

namespace Cert.KernelIdeal.Blocks

open Cert.KernelIdeal Cert.KernelIdeal.Gen
open Idealize.ShloMosaic Idealize.ShloMosaic.TcCoe Idealize.ShloMosaic.Tactic Idealize.SL.Sem
open Idealize.ShloMosaic.ValueIdx

variable {F : FTy → Type} [FloatOps F]

theorem zeros3 : (![0, 0, 0] : Fin 3 → Nat) = fun _ => 0 := funext fun a => by fin_cases a <;> rfl

/-- A position below 64 written as a word, cast to an index and read back is itself. -/
theorem pos_toNat (k : Nat) (hk : k < 64) : (Scalar.indexCast (BitVec.ofNat 32 k)).toNat = k := by
  show (BitVec.ofNat 32 k).toNat = k
  rw [BitVec.toNat_ofNat]; exact Nat.mod_eq_of_lt (by omega)

/-- The one-word rectangle at position b of a 64-word table names the table's index b. -/
theorem unit_emb (i : grid0.Coords) (h1 : 0 < S1.numel) :
    (Rect.unit (s := S64) (k0_off1 i) S1.size (k0_off1_inb i)).emb (Shape.Idx.first h1) = ix1 (i 1) := by
  funext a
  apply Fin.ext
  fin_cases a
  show (k0_off1 i) 0 + 1 * (Shape.Idx.first h1 (0 : Fin 1)).val = (i 1).val
  have h0 : (Shape.Idx.first h1 (0 : Fin 1)).val = 0 := by
    have := (Shape.Idx.first h1 (0 : Fin 1)).isLt
    have e : S1.size (0 : Fin 1) = 1 := by decide
    omega
  have hk : (k0_off1 i) 0 = (i 1).val := pos_toNat (i 1).val (i 1).isLt
  rw [h0, hk]; omega

/-- The word the body reads through table 1's memref at grid coordinates i is the table's word at step i 1 — for any
    contents of the table's buffer. -/
theorem body_word (c : Dev nD) (i : grid0.Coords) (xt1 : TbBuf0 (F := F) c tbM0_1) :
    tbM0_1.view.readAt (Elt F) (Rect.unit (s := S64) (k0_off1 i) S1.size (k0_off1_inb i)).toLoadRect xt1
        (Shape.Idx.first (numel1_S1.symm ▸ Nat.one_pos))
      = (xt1 : IVec S64 32) (ix1 (i 1)) :=
  congrArg (xt1 : IVec S64 32) (unit_emb i _)

/-- THE FOUND PIECE: the body's one store leaves the payload of its three loads — the rows of the sample the table word
    names, and the weight and bias blocks whole. -/
theorem out_eq (c : Dev nD) (i : grid0.Coords) (arg4 : Memref sig .tc .vmem S64x32x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x32x1024 .f32) (harg7 : arg7.IsWhole)
    (x0 : Vec F S64x32x1024 .f32) (x1 : Vec F S1x1024x1024 .f32) (x2 : Vec F S1x1x1024 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) :
    out0_A_3 c i arg4 harg4 arg5 harg5 arg6 harg6 arg7 harg7 x0 x1 x2 xt0 xt1 k0_hw1
      = k0_pay1 (View.ld x0 (Rect.unit (s := S64x32x1024)
            (k0_off2 (tbM0_1.view.readAt (Elt F) (Rect.unit (s := S64) (k0_off1 i) S1.size (k0_off1_inb i)).toLoadRect xt1 (Shape.Idx.first (numel1_S1.symm ▸ Nat.one_pos))))
            S1x32x1024.size (k0_off2_inb _ k0_hw1))) x1 x2 := by
  unfold out0_A_3
  rw [View.read_writes_eq_canon _ _ _ (cover0_A_3 c i arg4 harg4 arg5 harg5 arg6 harg6 arg7 harg7 x0 x1 x2 xt0 xt1 k0_hw1)]
  unfold kernelRun0_A
  dsimp only
  sl_unfold_words
  rw [View.canon_unit_zero zeros3]
  simp only [View.readAt_eq_ld, Memref.IsWhole.read_unread, View.ld_unit_zero (S := S1x1024x1024) zeros3,
    View.ld_unit_zero (S := S1x1x1024) zeros3]

/-- THE STORED ENTRY of a point whose table word names sample j: entry (0, s, e) of the stored block is
    tanh (Σ_k x0[j, s, k] · x1[0, k, e] + x2[0, 0, e]), for x0 the resident array and x1, x2 the point's weight and bias blocks. -/
theorem out_at (c : Dev nD) (i : grid0.Coords) (arg4 : Memref sig .tc .vmem S64x32x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x32x1024 .f32) (harg7 : arg7.IsWhole)
    (x0 : Vec Ideal S64x32x1024 .f32) (x1 : Vec Ideal S1x1024x1024 .f32) (x2 : Vec Ideal S1x1x1024 .f32) (xt0 : TbBuf0 (F := Ideal) c tbM0_0) (xt1 : TbBuf0 (F := Ideal) c tbM0_1) (k0_hw1 : k0_chk1 (tbM0_1.view.readAt (Elt Ideal) (Rect.unit (s := S64) (k0_off1 i) S1.size (k0_off1_inb i)).toLoadRect xt1 (Shape.Idx.first (numel1_S1.symm ▸ Nat.one_pos))))
    (j : Fin 64)
    (hj : (tbM0_1.view.readAt (Elt Ideal) (Rect.unit (s := S64) (k0_off1 i) S1.size (k0_off1_inb i)).toLoadRect xt1 (Shape.Idx.first (numel1_S1.symm ▸ Nat.one_pos))).toNat = j.val)
    (s : Fin 32) (e : Fin 1024) :
    out0_A_3 c i arg4 harg4 arg5 harg5 arg6 harg6 arg7 harg7 x0 x1 x2 xt0 xt1 k0_hw1 (ix3 (0 : Fin 1) s e)
      = Ideal.tanh ((∑ k : Fin 1024, x0 (ix3 j s k) * x1 (ix3 (0 : Fin 1) k e)) + x2 (ix3 (0 : Fin 1) (0 : Fin 1) e)) := by
  rw [out_eq, Cert.KernelIdeal.Payload.pay_apply]
  congr 2
  refine Finset.sum_congr rfl fun k _ => ?_
  congr 1
  -- the loaded rows at (0, s, k) are the resident array at (j, s, k): the load starts at sample (table word), row 0, column 0
  show x0 ((Rect.unit (s := S64x32x1024) (k0_off2 _) S1x32x1024.size (k0_off2_inb _ k0_hw1)).emb (ix3 (0 : Fin 1) s k)) = x0 (ix3 j s k)
  refine congrArg x0 (funext fun a => Fin.ext ?_)
  match a with
  | ⟨0, _⟩ =>
    show (Scalar.indexCast _).toNat + 1 * 0 = j.val
    rw [← hj]; rfl
  | ⟨1, _⟩ => show 0 + 1 * s.val = s.val; omega
  | ⟨2, _⟩ => show 0 + 1 * k.val = k.val; omega

/-! ## Where a point's blocks sit, at any admissible contents of the tables

Stated for arbitrary contents `pf` of the two tables (under the pipeline's side condition), so that nothing here looks
inside the tables: at point t = (n, b) the resident window sits at block (0, 0, 0), the weight and bias windows at
(table 0 word at b, 0, n) and the output window at (table 1 word at b, 0, n). -/

section Sits

variable (pf : pre0.Contents (Elt F)) (hok : ok0 pf)

/-- The pipeline at those contents. -/
abbrev cfgP : Pipeline.Cfg sig Λ₀ := pcfg0.at ⟨pf, hok⟩

/-- The chunk number, a grid coordinate below 4, written as a word and read back. -/
theorem chunk_toNat (t : Fin grid0.N) : (BitVec.ofNat 32 (grid0.coords t 0).val).toNat = (grid0.coords t 0).val := by
  have h4 : (grid0.coords t 0).val < 4 := (grid0.coords t 0).isLt
  rw [BitVec.toNat_ofNat]; exact Nat.mod_eq_of_lt (by omega)

theorem index0 (t : Fin grid0.N) (a : Fin 3) : ((cfgP pf hok).win 0).index t a = 0 := by
  match a with
  | ⟨0, _⟩ => rfl
  | ⟨1, _⟩ => rfl
  | ⟨2, _⟩ => rfl

theorem index1_0 (t : Fin grid0.N) :
    ((cfgP pf hok).win 1).index t (0 : Fin 3) = ((pf 0 : IVec S64 32) (ix1 (grid0.coords t 1))).toNat :=
  (rfl : ((cfgP pf hok).win 1).index t (0 : Fin 3) = ((pf 0 : IVec S64 32) ((Rect.unit (s := S64) (k0_off1 (grid0.coords t)) S1.size (k0_off1_inb (grid0.coords t))).emb (Shape.Idx.first (numel1_S1.symm ▸ Nat.one_pos)))).toNat).trans
    (congrArg (fun x => ((pf 0 : IVec S64 32) x).toNat) (unit_emb (grid0.coords t) _))
theorem index1_1 (t : Fin grid0.N) : ((cfgP pf hok).win 1).index t (1 : Fin 3) = 0 := rfl
theorem index1_2 (t : Fin grid0.N) : ((cfgP pf hok).win 1).index t (2 : Fin 3) = (grid0.coords t 0).val :=
  (rfl : ((cfgP pf hok).win 1).index t (2 : Fin 3) = (BitVec.ofNat 32 (grid0.coords t 0).val).toNat).trans (chunk_toNat t)

theorem index2_0 (t : Fin grid0.N) :
    ((cfgP pf hok).win 2).index t (0 : Fin 3) = ((pf 0 : IVec S64 32) (ix1 (grid0.coords t 1))).toNat :=
  (rfl : ((cfgP pf hok).win 2).index t (0 : Fin 3) = ((pf 0 : IVec S64 32) ((Rect.unit (s := S64) (k0_off1 (grid0.coords t)) S1.size (k0_off1_inb (grid0.coords t))).emb (Shape.Idx.first (numel1_S1.symm ▸ Nat.one_pos)))).toNat).trans
    (congrArg (fun x => ((pf 0 : IVec S64 32) x).toNat) (unit_emb (grid0.coords t) _))
theorem index2_1 (t : Fin grid0.N) : ((cfgP pf hok).win 2).index t (1 : Fin 3) = 0 := rfl
theorem index2_2 (t : Fin grid0.N) : ((cfgP pf hok).win 2).index t (2 : Fin 3) = (grid0.coords t 0).val :=
  (rfl : ((cfgP pf hok).win 2).index t (2 : Fin 3) = (BitVec.ofNat 32 (grid0.coords t 0).val).toNat).trans (chunk_toNat t)

theorem index3_0 (t : Fin grid0.N) :
    ((cfgP pf hok).win 3).index t (0 : Fin 3) = ((pf 1 : IVec S64 32) (ix1 (grid0.coords t 1))).toNat :=
  (rfl : ((cfgP pf hok).win 3).index t (0 : Fin 3) = ((pf 1 : IVec S64 32) ((Rect.unit (s := S64) (k0_off1 (grid0.coords t)) S1.size (k0_off1_inb (grid0.coords t))).emb (Shape.Idx.first (numel1_S1.symm ▸ Nat.one_pos)))).toNat).trans
    (congrArg (fun x => ((pf 1 : IVec S64 32) x).toNat) (unit_emb (grid0.coords t) _))
theorem index3_1 (t : Fin grid0.N) : ((cfgP pf hok).win 3).index t (1 : Fin 3) = 0 := rfl
theorem index3_2 (t : Fin grid0.N) : ((cfgP pf hok).win 3).index t (2 : Fin 3) = (grid0.coords t 0).val :=
  (rfl : ((cfgP pf hok).win 3).index t (2 : Fin 3) = (BitVec.ofNat 32 (grid0.coords t 0).val).toNat).trans (chunk_toNat t)

/-- The resident window's block is the whole array: its index y is the array's index y. -/
theorem emb0 (t : Fin grid0.N) (y : S64x32x1024.Idx) : (((cfgP pf hok).win 0).blk t).view.emb y = y := by
  funext a
  apply Fin.ext
  match a with
  | ⟨0, _⟩ => show ((cfgP pf hok).win 0).index t (0 : Fin 3) * 64 + 1 * (y 0).val = (y 0).val; rw [index0]; omega
  | ⟨1, _⟩ => show ((cfgP pf hok).win 0).index t (1 : Fin 3) * 32 + 1 * (y 1).val = (y 1).val; rw [index0]; omega
  | ⟨2, _⟩ => show ((cfgP pf hok).win 0).index t (2 : Fin 3) * 1024 + 1 * (y 2).val = (y 2).val; rw [index0]; omega

/-- The weight block's entry (0, k, e) is the weight array's entry (table 0 word, k, 1024 n + e). -/
theorem emb1 (t : Fin grid0.N) (k e : Fin 1024) (z : S16x1024x4096.Idx)
    (h0 : (z 0).val = ((pf 0 : IVec S64 32) (ix1 (grid0.coords t 1))).toNat) (h1 : (z 1).val = k.val)
    (h2 : (z 2).val = (grid0.coords t 0).val * 1024 + e.val) :
    (((cfgP pf hok).win 1).blk t).view.emb (ix3 (0 : Fin 1) k e) = z := by
  funext a
  apply Fin.ext
  match a with
  | ⟨0, _⟩ => show ((cfgP pf hok).win 1).index t (0 : Fin 3) * 1 + 1 * 0 = (z 0).val; rw [index1_0, h0]; omega
  | ⟨1, _⟩ => show ((cfgP pf hok).win 1).index t (1 : Fin 3) * 1024 + 1 * k.val = (z 1).val; rw [index1_1, h1]; omega
  | ⟨2, _⟩ => show ((cfgP pf hok).win 1).index t (2 : Fin 3) * 1024 + 1 * e.val = (z 2).val; rw [index1_2, h2]; omega

/-- The bias block's entry (0, 0, e) is the bias array's entry (table 0 word, 0, 1024 n + e). -/
theorem emb2 (t : Fin grid0.N) (e : Fin 1024) (z : S16x1x4096.Idx)
    (h0 : (z 0).val = ((pf 0 : IVec S64 32) (ix1 (grid0.coords t 1))).toNat)
    (h2 : (z 2).val = (grid0.coords t 0).val * 1024 + e.val) :
    (((cfgP pf hok).win 2).blk t).view.emb (ix3 (0 : Fin 1) (0 : Fin 1) e) = z := by
  funext a
  apply Fin.ext
  match a with
  | ⟨0, _⟩ => show ((cfgP pf hok).win 2).index t (0 : Fin 3) * 1 + 1 * 0 = (z 0).val; rw [index2_0, h0]; omega
  | ⟨1, _⟩ =>
    show ((cfgP pf hok).win 2).index t (1 : Fin 3) * 1 + 1 * 0 = (z 1).val
    have : (z 1).val < 1 := (z 1).isLt
    rw [index2_1]; omega
  | ⟨2, _⟩ => show ((cfgP pf hok).win 2).index t (2 : Fin 3) * 1024 + 1 * e.val = (z 2).val; rw [index2_2, h2]; omega

/-- The output block's entry (0, s, e) is the output array's entry (table 1 word, s, 1024 n + e). -/
theorem emb3 (t : Fin grid0.N) (s : Fin 32) (e : Fin 1024) (z : S64x32x4096.Idx)
    (h0 : (z 0).val = ((pf 1 : IVec S64 32) (ix1 (grid0.coords t 1))).toNat) (h1 : (z 1).val = s.val)
    (h2 : (z 2).val = (grid0.coords t 0).val * 1024 + e.val) :
    (((cfgP pf hok).win 3).blk t).view.emb (ix3 (0 : Fin 1) s e) = z := by
  funext a
  apply Fin.ext
  match a with
  | ⟨0, _⟩ => show ((cfgP pf hok).win 3).index t (0 : Fin 3) * 1 + 1 * 0 = (z 0).val; rw [index3_0, h0]; omega
  | ⟨1, _⟩ => show ((cfgP pf hok).win 3).index t (1 : Fin 3) * 32 + 1 * s.val = (z 1).val; rw [index3_1, h1]; omega
  | ⟨2, _⟩ => show ((cfgP pf hok).win 3).index t (2 : Fin 3) * 1024 + 1 * e.val = (z 2).val; rw [index3_2, h2]; omega

end Sits

end Cert.KernelIdeal.Blocks

end
-- ==== Proof.Final.lean ====
/-
  The output array after the grid has run, and the program's result.

  The grid's 256 points are (n, b), b fastest. Point (n, b) writes its block at sample (table 1 word at b), chunk n. The
  table 1 words are a bijection of the 64 samples, so two consecutive points never share a block position — within a
  chunk the sample changes, and from b = 63 to b = 0 the chunk changes — and every point writes its block back; every
  sample j and every chunk are met by exactly one point, so the written blocks cover the 64 × 32 × 4096 array. Each
  written block is the routed projection restricted to it, so the array ends as the routed projection, which the host
  then relays as 64 × 128 × 1024.
-/
import proofs.«422440_j27307402068744_3_alg».proof.Proof.Blocks
import proofs.«422440_j27307402068744_3_alg».proof.Proof.TablesI
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Blocks Cert.KernelIdeal.Tables
open Idealize.ShloMosaic Idealize.ShloMosaic.TcCoe Idealize.SL.Sem Idealize.ShloMosaic.StableHlo
open Idealize.ShloMosaic.ValueIdx

/-! ## The schedule, at any admissible contents of the tables whose table 1 words are a bijection of the samples -/

section Schedule

variable {F : FTy → Type} [FloatOps F] (pf : pre0.Contents (Elt F)) (hok : ok0 pf)

/-- Point t is (t / 64, t mod 64). -/
theorem coords_val (t : Fin grid0.N) : (grid0.coords t 0).val = t.val / 64 ∧ (grid0.coords t 1).val = t.val % 64 := by
  have ht : t.val < 256 := N_0 ▸ t.isLt
  have s0 : grid0.stride 0 = 64 := by decide
  have s1 : grid0.stride 1 = 1 := by decide
  constructor
  · show t.val / grid0.stride 0 % 4 = t.val / 64
    rw [s0]; omega
  · show t.val / grid0.stride 1 % 64 = t.val % 64
    rw [s1]; omega

/-- EVERY POINT WRITES BACK: the next point's block sits elsewhere. -/
theorem flush_all
    (hinj : ∀ b b' : Fin 64, ((pf 1 : IVec S64 32) (ix1 b)).toNat = ((pf 1 : IVec S64 32) (ix1 b')).toNat → b = b')
    (t : Fin grid0.N) : ((cfgP pf hok).win 3).flush t = true := by
  have ht : t.val < 256 := N_0 ▸ t.isLt
  unfold Pipeline.Window.flush
  have hout : ((cfgP pf hok).win 3).isOut = true := rfl
  rw [hout, Bool.true_and, Bool.or_eq_true, decide_eq_true_eq, decide_eq_true_eq]
  by_cases hl : t.val + 1 = grid0.N
  · exact Or.inl hl
  · have hlt : t.val + 1 < grid0.N := by have := t.isLt; omega
    refine Or.inr ⟨hlt, fun hne => ?_⟩
    have e0 := congrFun hne (0 : Fin 3)
    have e2 := congrFun hne (2 : Fin 3)
    rw [index3_0, index3_0] at e0
    rw [index3_2, index3_2] at e2
    have hb := congrArg Fin.val (hinj _ _ e0)
    obtain ⟨a0, a1⟩ := coords_val ⟨t.val + 1, hlt⟩
    obtain ⟨c0, c1⟩ := coords_val t
    rw [a0, c0] at e2
    rw [a1, c1] at hb
    show False
    have e2' : (t.val + 1) / 64 = t.val / 64 := e2
    have hb' : (t.val + 1) % 64 = t.val % 64 := hb
    omega

/-- THE WRITTEN BLOCKS COVER THE ARRAY: entry (j, s, e') lies in the block of the point (e' / 1024, b) with table 1
    word j at b. -/
theorem cover
    (hinj : ∀ b b' : Fin 64, ((pf 1 : IVec S64 32) (ix1 b)).toNat = ((pf 1 : IVec S64 32) (ix1 b')).toNat → b = b')
    (hsurj : ∀ j : Fin 64, ∃ b : Fin 64, ((pf 1 : IVec S64 32) (ix1 b)).toNat = j.val)
    (i : S64x32x4096.Idx) :
    ∃ t : Fin grid0.N, ((cfgP pf hok).win 3).flush t = true ∧ i ∈ (((cfgP pf hok).win 3).blk t).view.set := by
  obtain ⟨b, hb⟩ := hsurj ⟨(i 0).val, (i 0).isLt⟩
  have h2 : (i 2).val < 4096 := (i 2).isLt
  have hb64 : b.val < 64 := b.isLt
  have hN : grid0.N = 256 := N_0
  have htl : (i 2).val / 1024 * 64 + b.val < grid0.N := by rw [hN]; omega
  obtain ⟨c0, c1⟩ := coords_val ⟨(i 2).val / 1024 * 64 + b.val, htl⟩
  have hc0 : (grid0.coords ⟨(i 2).val / 1024 * 64 + b.val, htl⟩ 0).val = (i 2).val / 1024 := by
    rw [c0]; show ((i 2).val / 1024 * 64 + b.val) / 64 = (i 2).val / 1024; omega
  have hc1 : grid0.coords ⟨(i 2).val / 1024 * 64 + b.val, htl⟩ 1 = b := Fin.ext (by
    rw [c1]; show ((i 2).val / 1024 * 64 + b.val) % 64 = b.val; omega)
  refine ⟨⟨(i 2).val / 1024 * 64 + b.val, htl⟩, flush_all pf hok hinj _, ?_⟩
  have he := emb3 pf hok ⟨(i 2).val / 1024 * 64 + b.val, htl⟩ ⟨(i 1).val, (i 1).isLt⟩
    ⟨(i 2).val % 1024, Nat.mod_lt _ (by decide)⟩ i (by rw [hc1, hb]) rfl
    (by rw [hc0]; show (i 2).val = (i 2).val / 1024 * 1024 + (i 2).val % 1024; omega)
  have hm := View.emb_mem_set (((cfgP pf hok).win 3).blk ⟨(i 2).val / 1024 * 64 + b.val, htl⟩).view
    (ix3 (0 : Fin 1) (⟨(i 1).val, (i 1).isLt⟩ : Fin 32) (⟨(i 2).val % 1024, Nat.mod_lt _ (by decide)⟩ : Fin 1024))
  rw [he] at hm
  exact hm

end Schedule

/-! ## The values, on ids in range -/

variable (m : (ℓ : Loc nD τ sig) → Buf (Elt Ideal) ℓ) (ρ : Dev nD → PrngReg) (hO : Ok m) (hH : Hyps m hO)

/-- The routed projection of the launched arrays. -/
abbrev target (c : Dev nD) : S64x32x4096.Idx → EReal :=
  Cert.Routed.proj (m ((c : Thread nD τ).loc main_arg0)) (ids m) (m ((c : Thread nD τ).loc main_arg2))
    (m ((c : Thread nD τ).loc main_arg3))

/-- The bias array as the grid finds it: the launched 16 × 4096 bias with a unit axis put in the middle. -/
theorem V_bias (c : Dev nD) :
    (V m c main_v9 : FVec Ideal S16x1x4096 .f32)
      = broadcastInDim S16x1x4096 ![0, 2] bcast_S16x4096_S16x1x4096_0_2 (m ((c : Thread nD τ).loc main_arg3)) := by
  unfold V V0
  simp only [hostOps0, hostOps0_1, hostOps0_2, hostOps0_3, List.flatten_cons, List.flatten_nil, List.append_nil,
    List.cons_append, List.nil_append]
  after_results

theorem V_bias_apply (c : Dev nD) (f : Fin 16) (e' : Fin 4096) :
    (V m c main_v9 : FVec Ideal S16x1x4096 .f32) (ix3 f (0 : Fin 1) e') = m ((c : Thread nD τ).loc main_arg3) (ix2 f e') := by
  rw [V_bias]
  exact broadcastInDim_apply _ bcast_S16x4096_S16x1x4096_0_2 _ (ix3 f (0 : Fin 1) e') (ix2 f e') (fun a => match a with
    | ⟨0, _⟩ => by show f.val = if (16 : Nat) = 1 then 0 else f.val; rw [if_neg (by decide)]
    | ⟨1, _⟩ => by show e'.val = if (4096 : Nat) = 1 then 0 else e'.val; rw [if_neg (by decide)])

/-- A position below 64 written as a word and read back is itself. -/
theorem word64 (k : Fin 64) : (BitVec.ofNat 32 k.val).toNat = k.val := by
  rw [BitVec.toNat_ofNat]; exact Nat.mod_eq_of_lt (by have := k.isLt; omega)

/-- The three input blocks a point is handed, at their literal types: the resident input, the weight chunk, the bias chunk. -/
abbrev encBlk (c : Dev nD) (t : Fin grid0.N) : Vec Ideal S64x32x1024 .f32 := iblk m hO c 0 t
abbrev wtBlk (c : Dev nD) (t : Fin grid0.N) : Vec Ideal S1x1024x1024 .f32 := iblk m hO c 1 t
abbrev biasBlk (c : Dev nD) (t : Fin grid0.N) : Vec Ideal S1x1x1024 .f32 := iblk m hO c 2 t

/-- The point's stored entry over its three blocks, the table word naming sample j. -/
theorem out_point (c : Dev nD) (t : Fin grid0.N) (j : Fin 64)
    (hj : ((tbl m 1 : IVec S64 32) (ix1 (grid0.coords t 1))).toNat = j.val) (s : Fin 32) (e : Fin 1024) :
    outsAt0 m hO hH c t (ix3 (0 : Fin 1) s e)
      = Ideal.tanh ((∑ k : Fin 1024, encBlk m hO c t (ix3 j s k) * wtBlk m hO c t (ix3 (0 : Fin 1) k e))
          + biasBlk m hO c t (ix3 (0 : Fin 1) (0 : Fin 1) e)) :=
  out_at c (grid0.coords t) (ms0_0 m hO t) (hs0_0 m hO t) (ms0_1 m hO t) (hs0_1 m hO t) (ms0_2 m hO t)
    (hs0_2 m hO t) (ms0_3 m hO t) (hs0_3 m hO t) (encBlk m hO c t) (wtBlk m hO c t) (biasBlk m hO c t) (tbl m 0) (tbl m 1)
    (Hyps.c0 hH c t) j ((congrArg BitVec.toNat (body_word c (grid0.coords t) (tbl m 1))).trans hj) s e

/-- The resident block is the launched input array. -/
theorem read0 (c : Dev nD) (t : Fin grid0.N) (y : S64x32x1024.Idx) :
    encBlk m hO c t y = m ((c : Thread nD τ).loc main_arg0) y := by
  show V m c main_arg0 ((((cfgM m hO).win 0).blk t).view.emb y) = _
  rw [emb0 (tbl m) hO t, V_main_arg0]

/-- The weight block's entry (0, k, e) is the launched weight array's entry z, for z at (table 0 word, k, 1024 n + e). -/
theorem read1 (c : Dev nD) (t : Fin grid0.N) (k e : Fin 1024) (z : S16x1024x4096.Idx)
    (h0 : (z 0).val = ((tbl m 0 : IVec S64 32) (ix1 (grid0.coords t 1))).toNat) (h1 : (z 1).val = k.val)
    (h2 : (z 2).val = (grid0.coords t 0).val * 1024 + e.val) :
    wtBlk m hO c t (ix3 (0 : Fin 1) k e) = m ((c : Thread nD τ).loc main_arg2) z := by
  show V m c main_arg2 ((((cfgM m hO).win 1).blk t).view.emb (ix3 (0 : Fin 1) k e)) = _
  rw [emb1 (tbl m) hO t k e z h0 h1 h2, V_main_arg2]

/-- The bias block's entry (0, 0, e) is the launched bias array's entry (table 0 word, 1024 n + e). -/
theorem read2 (c : Dev nD) (t : Fin grid0.N) (e : Fin 1024) (f : Fin 16) (e' : Fin 4096)
    (h0 : f.val = ((tbl m 0 : IVec S64 32) (ix1 (grid0.coords t 1))).toNat)
    (h2 : e'.val = (grid0.coords t 0).val * 1024 + e.val) :
    biasBlk m hO c t (ix3 (0 : Fin 1) (0 : Fin 1) e) = m ((c : Thread nD τ).loc main_arg3) (ix2 f e') := by
  show V m c main_v9 ((((cfgM m hO).win 2).blk t).view.emb (ix3 (0 : Fin 1) (0 : Fin 1) e)) = _
  rw [emb2 (tbl m) hO t e (ix3 f (0 : Fin 1) e') h0 h2, V_bias_apply]

/-- The output block's entry (0, s, e) sits at output entry z, for z at (table 1 word, s, 1024 n + e). -/
theorem sits3 (t : Fin grid0.N) (s : Fin 32) (e : Fin 1024) (z : S64x32x4096.Idx)
    (h0 : (z 0).val = ((tbl m 1 : IVec S64 32) (ix1 (grid0.coords t 1))).toNat) (h1 : (z 1).val = s.val)
    (h2 : (z 2).val = (grid0.coords t 0).val * 1024 + e.val) :
    (((cfgM m hO).win 3).blk t).view.emb (ix3 (0 : Fin 1) s e) = z :=
  emb3 (tbl m) hO t s e z h0 h1 h2

/-- WHAT A POINT STORES is the routed projection on its block. -/
theorem point_eq (hR : Cert.Routed.InRange (ids m)) (c : Dev nD) (t : Fin grid0.N) (y : S1x32x1024.Idx) :
    outsAt0 m hO hH c t y = target m c ((((cfgM m hO).win 3).blk t).view.emb y) := by
  obtain ⟨π, hπ, htab⟩ := tables m hR
  obtain ⟨hw1, hw0⟩ := htab (grid0.coords t 1)
  obtain ⟨y0, s, e, rfl⟩ : ∃ (y0 : Fin 1) (s : Fin 32) (e : Fin 1024), y = ix3 y0 s e := ⟨y 0, y 1, y 2, eq_ix3 y⟩
  obtain rfl : y0 = 0 := Subsingleton.elim _ _
  obtain rfl : c = 0 := Subsingleton.elim _ _
  have hn4 : (grid0.coords t 0).val < 4 := (grid0.coords t 0).isLt
  have he : e.val < 1024 := e.isLt
  have h1n : ((tbl m 1 : IVec S64 32) (ix1 (grid0.coords t 1))).toNat = (π (grid0.coords t 1)).val := by
    rw [hw1]; exact word64 _
  have h0n : ((tbl m 0 : IVec S64 32) (ix1 (grid0.coords t 1))).toNat
      = (Cert.Routed.row (ids m) (π (grid0.coords t 1))).val := by
    rw [hw0, Cert.Routed.row_val hR]
  have hcol : (grid0.coords t 0).val * 1024 + e.val < 4096 := by omega
  rw [sits3 m hO t s e (ix3 (π (grid0.coords t 1)) s (⟨(grid0.coords t 0).val * 1024 + e.val, hcol⟩ : Fin 4096))
    h1n.symm rfl rfl]
  rw [out_point m hO hH 0 t (π (grid0.coords t 1)) h1n s e]
  show _ = Cert.Routed.projAt _ _ _ _ (π (grid0.coords t 1)) s (⟨(grid0.coords t 0).val * 1024 + e.val, hcol⟩ : Fin 4096)
  unfold Cert.Routed.projAt
  rw [read2 m hO 0 t e (Cert.Routed.row (ids m) (π (grid0.coords t 1))) ⟨(grid0.coords t 0).val * 1024 + e.val, hcol⟩
    h0n.symm rfl]
  refine congrArg Ideal.tanh (congrArg (fun X => X + _) (Finset.sum_congr rfl fun k _ => ?_))
  rw [read0 m hO 0 t, read1 m hO 0 t k e
    (ix3 (Cert.Routed.row (ids m) (π (grid0.coords t 1))) k (⟨(grid0.coords t 0).val * 1024 + e.val, hcol⟩ : Fin 4096))
    h0n.symm rfl rfl]

/-- What point t writes back is its block of the routed projection. -/
theorem flushed_eq (hR : Cert.Routed.InRange (ids m)) (c : Dev nD) (t : Fin (cfgM m hO).N) :
    (dats m hO hH 0 c).flushed 3 t = (((cfgM m hO).win 3).blk t).view.read (Elt Ideal) (target m c) := by
  show ((cfgM m hO).win 3).cut (grid0.coords t) ((dats m hO hH 0 c).after 3 t) = _
  rw [after0_3]
  exact funext fun y => point_eq m hO hH hR c t y

/-- THE OUTPUT ARRAY after the grid: the routed projection. -/
theorem final (hR : Cert.Routed.InRange (ids m)) (c : Dev nD) :
    (dats m hO hH 0 c).arrAt 3 (cfgM m hO).N = target m c := by
  obtain ⟨π, hπ, htab⟩ := tables m hR
  have hinj : ∀ b b' : Fin 64, ((tbl m 1 : IVec S64 32) (ix1 b)).toNat = ((tbl m 1 : IVec S64 32) (ix1 b')).toNat → b = b' := by
    intro b b' h
    rw [(htab b).1, (htab b').1, word64, word64] at h
    exact hπ.1 (Fin.ext h)
  have hsurj : ∀ j : Fin 64, ∃ b : Fin 64, ((tbl m 1 : IVec S64 32) (ix1 b)).toNat = j.val := by
    intro j
    obtain ⟨b, rfl⟩ := hπ.2 j
    exact ⟨b, by rw [(htab b).1, word64]⟩
  exact (dats m hO hH 0 c).arrAt_eq_of_cover 3 (target m c) (fun t _ => flushed_eq m hO hH hR c t)
    (cover (tbl m) hO hinj hsurj)

/-- The host's closing line relays the output array. -/
theorem tail_eq (c : Dev nD) :
    Pipeline.afterTail pcfgs (fun _ => adm m hO) (dats m hO hH) 0 (V0 m) [hostOps1] c main_v11
      = shapeCast S64x128x1024 ((dats m hO hH 0 c).arrAt 3 (cfgM m hO).N) shapeCasts_S64x32x4096_S64x128x1024 := by
  unfold Pipeline.afterTail
  simp only [List.flatten_cons, List.flatten_nil, List.append_nil]
  show StableHlo.after hostOps1 _ (Proc.devRef .tc main_v11) = _
  after_results
  have hw : Pipeline.withArrays (Pipeline.pin pcfgs (fun _ => adm m hO) 0).spec c (V0 m c)
      (fun w => (dats m hO hH 0 c).arrAt w (Pipeline.pin pcfgs (fun _ => adm m hO) 0).N) (Proc.devRef .tc main_v10)
      = (dats m hO hH 0 c).arrAt 3 (cfgM m hO).N :=
    Pipeline.withArrays_arr spec0 winFacts0.arr_inj c _ _ 3
  rw [hw]
  rfl

include hO hH in
/-- THE IDEALIZED KERNEL'S RUN, on ids in range: it terminates without a fault, its result is the routed projection of
    the launched arrays relaid as 64 × 128 × 1024, and its arguments end as launched. -/
theorem run (hR : Cert.Routed.InRange (ids m)) :
    θ_run defs (onTc (τ := τ) (main (F := Ideal))) ⟨m, fun _ => 0, ρ⟩ (fun r => ∀ c : Dev nD,
      r.2.mem ((c.tc : Thread nD τ).loc main_v11)
          = shapeCast S64x128x1024 (target m c) shapeCasts_S64x32x4096_S64x128x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (by decide : main_v11 ∈ Pipeline.restRefs sig spec0)).trans
        ((tail_eq m hO hH c).trans (congrArg (fun X => shapeCast S64x128x1024 X shapeCasts_S64x32x4096_S64x128x1024)
          (final m hO hH hR c))),
      ((h c).1 0).trans (((dats m hO hH 0 c).arrAt_in 0 rfl _).trans ((A_eq m hO hH c 0).trans (V_main_arg0 m c))),
      ((h c).2 main_arg1 (by decide : main_arg1 ∈ Pipeline.restRefs sig spec0)).trans (W_main_arg1 m hO (dats m hO hH) c),
      ((h c).1 1).trans (((dats m hO hH 0 c).arrAt_in 1 rfl _).trans ((A_eq m hO hH c 1).trans (V_main_arg2 m c))),
      ((h c).2 main_arg3 (by decide : main_arg3 ∈ Pipeline.restRefs sig spec0)).trans (W_main_arg3 m hO (dats m hO hH) c)⟩)
    (run_main m ρ hO hH)

end Cert.KernelIdeal.Final

end
-- ==== Proof.RefValue.lean ====
/-
  The reference, stage by stage, is the routed projection.

  The reference wraps a negative id by 16 and then looks rows up with a clamped gather; on ids in [0, 16) neither does
  anything, so its gathered weight at (j, k, e) is W[ids[j], k, e] and its gathered bias at (j, e) is B[ids[j], e]. The
  batched product over k, the bias laid along the 32 positions, and the hyperbolic tangent then give the formula of the
  specification entry by entry.
-/
import proofs.«422440_j27307402068744_3_alg».proof.Proof.Gen.ReferenceIdeal.Read
import proofs.«422440_j27307402068744_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The two gathers, read at an index

Operand axis 0 is collapsed and start-indexed: its coordinate is the start index of sample j, read signed and held to the
last row. The other operand axes are offset axes and carry the result's remaining coordinates. -/

private theorem gatherW_apply {α : Type} (x : S16x1024x4096.Idx → α) (idx : IVec S64x1 32)
    (j : Fin 64) (k : Fin 1024) (e : Fin 4096) :
    Host.gather gather_S16x1024x4096_S64x1_S64x1024x4096_12_0_n_n_0_1_110244096 x idx (ix3 j k e)
      = x (ix3 (⟨min (idx (ix2 j 0)).toInt.toNat 15, by omega⟩ : Fin 16) k e) := by
  have h0 : gather_S16x1024x4096_S64x1_S64x1024x4096_12_0_n_n_0_1_110244096.start (ix3 j k e) idx (0 : Fin 3)
      + gather_S16x1024x4096_S64x1_S64x1024x4096_12_0_n_n_0_1_110244096.batchCoord (ix3 j k e) (0 : Fin 3)
      + gather_S16x1024x4096_S64x1_S64x1024x4096_12_0_n_n_0_1_110244096.offCoord (ix3 j k e) (0 : Fin 3)
      = min (idx (ix2 j 0)).toInt.toNat 15 := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 3) ∈ gather_S16x1024x4096_S64x1_S64x1024x4096_12_0_n_n_0_1_110244096.startIndexMap from List.mem_singleton.mpr rfl)]
    have hsi : gather_S16x1024x4096_S64x1_S64x1024x4096_12_0_n_n_0_1_110244096.siIdx (ix3 j k e)
        ⟨List.idxOf (0 : Fin 3) gather_S16x1024x4096_S64x1_S64x1024x4096_12_0_n_n_0_1_110244096.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl
  have h1 : gather_S16x1024x4096_S64x1_S64x1024x4096_12_0_n_n_0_1_110244096.start (ix3 j k e) idx (1 : Fin 3)
      + gather_S16x1024x4096_S64x1_S64x1024x4096_12_0_n_n_0_1_110244096.batchCoord (ix3 j k e) (1 : Fin 3)
      + gather_S16x1024x4096_S64x1_S64x1024x4096_12_0_n_n_0_1_110244096.offCoord (ix3 j k e) (1 : Fin 3)
      = k.val := by
    rw [GatherDims.batchCoord_eq_zero _ _ _ List.not_mem_nil, Nat.add_zero]
    unfold GatherDims.start
    rw [dif_neg (by decide), Nat.zero_add]
    unfold GatherDims.offCoord
    rw [dif_pos (by decide)]
    rfl
  have h2 : gather_S16x1024x4096_S64x1_S64x1024x4096_12_0_n_n_0_1_110244096.start (ix3 j k e) idx (2 : Fin 3)
      + gather_S16x1024x4096_S64x1_S64x1024x4096_12_0_n_n_0_1_110244096.batchCoord (ix3 j k e) (2 : Fin 3)
      + gather_S16x1024x4096_S64x1_S64x1024x4096_12_0_n_n_0_1_110244096.offCoord (ix3 j k e) (2 : Fin 3)
      = e.val := by
    rw [GatherDims.batchCoord_eq_zero _ _ _ List.not_mem_nil, Nat.add_zero]
    unfold GatherDims.start
    rw [dif_neg (by decide), Nat.zero_add]
    unfold GatherDims.offCoord
    rw [dif_pos (by decide)]
    rfl
  unfold Host.gather
  congr 1
  funext a
  refine Fin.ext ?_
  match a with
  | ⟨0, _⟩ => exact h0
  | ⟨1, _⟩ => exact h1
  | ⟨2, _⟩ => exact h2

private theorem gatherB_apply {α : Type} (x : S16x4096.Idx → α) (idx : IVec S64x1 32)
    (j : Fin 64) (e : Fin 4096) :
    Host.gather gather_S16x4096_S64x1_S64x4096_1_0_n_n_0_1_14096 x idx (ix2 j e)
      = x (ix2 (⟨min (idx (ix2 j 0)).toInt.toNat 15, by omega⟩ : Fin 16) e) := by
  have h0 : gather_S16x4096_S64x1_S64x4096_1_0_n_n_0_1_14096.start (ix2 j e) idx (0 : Fin 2)
      + gather_S16x4096_S64x1_S64x4096_1_0_n_n_0_1_14096.batchCoord (ix2 j e) (0 : Fin 2)
      + gather_S16x4096_S64x1_S64x4096_1_0_n_n_0_1_14096.offCoord (ix2 j e) (0 : Fin 2)
      = min (idx (ix2 j 0)).toInt.toNat 15 := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ gather_S16x4096_S64x1_S64x4096_1_0_n_n_0_1_14096.startIndexMap from List.mem_singleton.mpr rfl)]
    have hsi : gather_S16x4096_S64x1_S64x4096_1_0_n_n_0_1_14096.siIdx (ix2 j e)
        ⟨List.idxOf (0 : Fin 2) gather_S16x4096_S64x1_S64x4096_1_0_n_n_0_1_14096.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl
  have h1 : gather_S16x4096_S64x1_S64x4096_1_0_n_n_0_1_14096.start (ix2 j e) idx (1 : Fin 2)
      + gather_S16x4096_S64x1_S64x4096_1_0_n_n_0_1_14096.batchCoord (ix2 j e) (1 : Fin 2)
      + gather_S16x4096_S64x1_S64x4096_1_0_n_n_0_1_14096.offCoord (ix2 j e) (1 : Fin 2)
      = e.val := by
    rw [GatherDims.batchCoord_eq_zero _ _ _ List.not_mem_nil, Nat.add_zero]
    unfold GatherDims.start
    rw [dif_neg (by decide), Nat.zero_add]
    unfold GatherDims.offCoord
    rw [dif_pos (by decide)]
    rfl
  unfold Host.gather
  congr 1
  funext a
  refine Fin.ext ?_
  match a with
  | ⟨0, _⟩ => exact h0
  | ⟨1, _⟩ => exact h1

/-! ## The start index is the id, and the held row is the id's row -/

/-- An id that is not negative, read signed, is not below zero: the wrap by 16 is not taken. -/
private theorem slt_zero_of_nonneg (v : BitVec 32) (hv : 0 ≤ v.toInt) : IntOp.cmpi .slt v 0#32 = 0#1 := by
  have : v.slt 0#32 = false := by
    simp only [BitVec.slt, BitVec.toInt_zero, decide_eq_false_iff_not, not_lt]
    exact hv
  show BitVec.ofBool (v.slt 0#32) = 0#1
  rw [this]
  rfl

/-- An id in range, read signed and then as a natural number, is its unsigned reading. -/
private theorem toInt_toNat_of_inRange {x1 : IVec Cert.Routed.SIds 32} (h : Cert.Routed.InRange x1) (j : Fin 64) :
    (x1 (ix1 j)).toInt.toNat = (x1 (ix1 j)).toNat := by
  have hlt := Cert.Routed.toNat_lt h j
  have : (x1 (ix1 j)).toInt = ((x1 (ix1 j)).toNat : Int) := by
    unfold BitVec.toInt
    split <;> omega
  rw [this, Int.toNat_natCast]

/-- The start index the weight gather reads for sample j: the id itself, on ids in range. -/
private theorem v5_apply (x1 : (⟨S64, .i32⟩ : BufTy).Contents (Elt Ideal)) (h : Cert.Routed.InRange x1) (j : Fin 64) :
    val_main_v5 (F := Ideal) x1 (ix2 j 0) = x1 (ix1 j) := by
  have hi : idx_main_v5 (ix2 j (0 : Fin 1)) = ix1 j := funext fun a => Fin.ext (by
    match a with
    | ⟨0, _⟩ => rfl)
  rw [val_main_v5_apply, hi, val_main_v4_apply, val_main_v1_apply, val_main_v0_apply, val_main_c_apply,
    slt_zero_of_nonneg _ (h j).1, select_zero]

/-- The start index the bias gather reads for sample j: the id itself, on ids in range. -/
private theorem v12_apply (x1 : (⟨S64, .i32⟩ : BufTy).Contents (Elt Ideal)) (h : Cert.Routed.InRange x1) (j : Fin 64) :
    val_main_v12 (F := Ideal) x1 (ix2 j 0) = x1 (ix1 j) := by
  have hi : idx_main_v12 (ix2 j (0 : Fin 1)) = ix1 j := funext fun a => Fin.ext (by
    match a with
    | ⟨0, _⟩ => rfl)
  rw [val_main_v12_apply, hi, val_main_v11_apply, val_main_v8_apply, val_main_v7_apply, val_main_c_1_apply,
    slt_zero_of_nonneg _ (h j).1, select_zero]

/-- The clamped row of the gathers is the row of the specification, on ids in range. -/
private theorem clamp_eq_row {x1 : IVec Cert.Routed.SIds 32} (h : Cert.Routed.InRange x1) (j : Fin 64) :
    (⟨min (x1 (ix1 j)).toInt.toNat 15, by omega⟩ : Fin 16) = Cert.Routed.row x1 j := by
  refine Fin.ext ?_
  show min (x1 (ix1 j)).toInt.toNat 15 = min (x1 (ix1 j)).toNat 15
  rw [toInt_toNat_of_inRange h j]

/-- The gathered weight at (j, k, e) is W[ids[j], k, e]. -/
private theorem v6_apply (x1 : (⟨S64, .i32⟩ : BufTy).Contents (Elt Ideal)) (x2 : (⟨S16x1024x4096, .f32⟩ : BufTy).Contents (Elt Ideal))
    (h : Cert.Routed.InRange x1) (j : Fin 64) (k : Fin 1024) (e : Fin 4096) :
    val_main_v6 (F := Ideal) x1 x2 (ix3 j k e) = x2 (ix3 (Cert.Routed.row x1 j) k e) := by
  unfold val_main_v6
  rw [gatherW_apply, ← clamp_eq_row h j]
  congr 3
  rw [v5_apply x1 h j]

/-- The gathered bias at (j, e) is B[ids[j], e]. -/
private theorem v13_apply (x1 : (⟨S64, .i32⟩ : BufTy).Contents (Elt Ideal)) (x3 : (⟨S16x4096, .f32⟩ : BufTy).Contents (Elt Ideal))
    (h : Cert.Routed.InRange x1) (j : Fin 64) (e : Fin 4096) :
    val_main_v13 (F := Ideal) x1 x3 (ix2 j e) = x3 (ix2 (Cert.Routed.row x1 j) e) := by
  unfold val_main_v13
  rw [gatherB_apply, ← clamp_eq_row h j]
  congr 3
  rw [v12_apply x1 h j]

/-- The reference's array before its final relayout is the routed projection of the arguments, on ids in range. -/
theorem pretanh_stage_eq (x0 : (⟨S64x32x1024, .f32⟩ : BufTy).Contents (Elt Ideal)) (x1 : (⟨S64, .i32⟩ : BufTy).Contents (Elt Ideal))
    (x2 : (⟨S16x1024x4096, .f32⟩ : BufTy).Contents (Elt Ideal)) (x3 : (⟨S16x4096, .f32⟩ : BufTy).Contents (Elt Ideal))
    (h : Cert.Routed.InRange x1) :
    val_main_v18 (F := Ideal) x0 x1 x2 x3 = Cert.Routed.proj x0 x1 x2 x3 := by
  funext i
  obtain ⟨j, s, e, rfl⟩ : ∃ (j : Fin 64) (s : Fin 32) (e : Fin 4096), i = ix3 j s e := ⟨i 0, i 1, i 2, eq_ix3 i⟩
  show val_main_v18 (F := Ideal) x0 x1 x2 x3 (ix3 j s e) = Cert.Routed.projAt x0 x1 x2 x3 j s e
  have hl : ∀ k : Fin 1024, lidx_main_v15 (ix3 j s e) k = ix3 j s k := fun k => funext fun a => Fin.ext (by
    match a with
    | ⟨0, _⟩ => rfl
    | ⟨1, _⟩ => rfl
    | ⟨2, _⟩ => rfl)
  have hr : ∀ k : Fin 1024, ridx_main_v15 (ix3 j s e) k = ix3 j k e := fun k => funext fun a => Fin.ext (by
    match a with
    | ⟨0, _⟩ => rfl
    | ⟨1, _⟩ => rfl
    | ⟨2, _⟩ => rfl)
  have hb : idx_main_v14 (idx_main_v16 (ix3 j s e)) = ix2 j e := funext fun a => Fin.ext (by
    match a with
    | ⟨0, _⟩ => rfl
    | ⟨1, _⟩ => rfl)
  rw [val_main_v18_apply, val_main_v17_apply, val_main_v15_apply, val_main_v16_apply, val_main_v14_apply, hb,
    v13_apply x1 x3 h j e, Ideal.hostUnary_tanh_def, Ideal.addf_def]
  unfold Cert.Routed.projAt
  congr 2
  refine Finset.sum_congr rfl fun k _ => ?_
  rw [hl k, hr k, v6_apply x1 x2 h j k e]

end Cert.ReferenceIdeal.RefValue

end
-- ==== Proof.lean ====
/-
  A routed projection: 64 samples, each with a framework id that selects one of 16 weight matrices and bias rows; the
  result is tanh (enc[j] · W[id j] + B[id j]) per sample, relaid as 64 × 128 × 1024.

  The kernel clamps the ids into [0, 15], argsorts them, and walks a 4 × 64 grid in sorted order: point (n, b) serves the
  sample at sorted position b, reads that sample's rows from the resident input, is handed chunk n of the selected
  weight matrix and bias row, and writes chunk n of that sample's output. The reference wraps negative ids the Python
  way and gathers the selected weights and biases before one batched product. The two readings of an id agree exactly on
  ids in [0, 16) — a clamp sends −1 to 0 where the wrap sends it to 15 — so the statement carries that range as its
  precondition, and under it:

  * the sorted positions are a bijection of the samples, so every table-indexed block lies inside its array and the
    body's row load is in range (the two side conditions of the generated frames), every grid point writes its block
    back, and the written blocks cover the output;
  * what each point writes is the routed projection on its block (the body's product, bias and tanh read entry by
    entry), so the kernel's output array is the routed projection;
  * the reference's stages, read entry by entry, are the same formula.

  No law of arithmetic beyond the definitions joins the two sides: both are the same sum, the same addition and the same
  hyperbolic tangent of the same entries, so the finiteness of the float inputs is never used.
-/
import proofs.«422440_j27307402068744_3_alg».proof.Defs
import proofs.«422440_j27307402068744_3_alg».proof.Proof.Gen.Kernel
import proofs.«422440_j27307402068744_3_alg».proof.Proof.Gen.Kernel.Skeleton
import proofs.«422440_j27307402068744_3_alg».proof.Proof.Gen.Kernel.Launch
import proofs.«422440_j27307402068744_3_alg».proof.Proof.Gen.Kernel.Points
import proofs.«422440_j27307402068744_3_alg».proof.Proof.Gen.Kernel.Frame
import proofs.«422440_j27307402068744_3_alg».proof.Proof.Gen.KernelIdeal
import proofs.«422440_j27307402068744_3_alg».proof.Proof.Gen.KernelIdeal.Skeleton
import proofs.«422440_j27307402068744_3_alg».proof.Proof.Gen.KernelIdeal.Launch
import proofs.«422440_j27307402068744_3_alg».proof.Proof.Gen.KernelIdeal.Points
import proofs.«422440_j27307402068744_3_alg».proof.Proof.Gen.KernelIdeal.Frame
import proofs.«422440_j27307402068744_3_alg».proof.Proof.Gen.ReferenceIdeal
import proofs.«422440_j27307402068744_3_alg».proof.Proof.Gen.ReferenceIdeal.Run
import proofs.«422440_j27307402068744_3_alg».proof.Proof.Gen.ReferenceIdeal.Read
import proofs.«422440_j27307402068744_3_alg».proof.Proof.Gen.Pre_finite_inputs
import proofs.«422440_j27307402068744_3_alg».proof.Proof.PreRange
import proofs.«422440_j27307402068744_3_alg».proof.Proof.OkHypsK
import proofs.«422440_j27307402068744_3_alg».proof.Proof.OkHypsI
import proofs.«422440_j27307402068744_3_alg».proof.Proof.Final
import proofs.«422440_j27307402068744_3_alg».proof.Proof.RefValue
import Idealize.ShloMosaic.Adequacy
import Idealize.ShloMosaic.Init

noncomputable section

namespace Cert.Proof

open Idealize.ShloMosaic Idealize.SL.Sem

/-- Under the precondition the word-level kernel's launched ids are in range. -/
theorem inRange_kernel (m : (ℓ : Loc Cert.Kernel.nD Cert.Kernel.τ Cert.Kernel.sig) → Buf (Elt Bits) ℓ)
    (h : Cert.Pre_Kernel m) : Cert.Routed.InRange (Cert.Kernel.Tables.ids m) :=
  Cert.PreRange.ids_inRange _ _ _ _ (h 0)

/-- Under the precondition the idealized kernel's launched ids are in range. -/
theorem inRange_ideal (m : (ℓ : Loc Cert.KernelIdeal.nD Cert.KernelIdeal.τ Cert.KernelIdeal.sig) → Buf (Elt Ideal) ℓ)
    (h : Cert.Pre_KernelIdeal m) : Cert.Routed.InRange (Cert.KernelIdeal.Tables.ids m) :=
  Cert.PreRange.ids_inRange _ _ _ _ (h 0)

/-- The word-level kernel runs and keeps its arguments: the generated frame, its two side conditions from ids in range. -/
theorem frame_kernel : Cert.frame_Kernel := fun m ρ h =>
  Cert.Kernel.Gen.frame m ρ (Cert.Kernel.OkHyps.ok_of_inRange m (inRange_kernel m h))
    (Cert.Kernel.OkHyps.hyps_of_inRange m (inRange_kernel m h) _)

/-- The same for the idealized kernel. -/
theorem frame_ideal : Cert.frame_KernelIdeal := fun m ρ h =>
  Cert.KernelIdeal.Gen.frame m ρ (Cert.KernelIdeal.OkHyps.ok_of_inRange m (inRange_ideal m h))
    (Cert.KernelIdeal.OkHyps.hyps_of_inRange m (inRange_ideal m h) _)

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the routed projection of the launched arrays, relaid as 64 × 128 × 1024. -/
theorem algebraic : Cert.algebraic_KernelIdeal_ReferenceIdeal := by
  intro m ρ m' ρ' hpre hagree
  have hR := inRange_ideal m hpre
  have hO := Cert.KernelIdeal.OkHyps.ok_of_inRange m hR
  have hH := Cert.KernelIdeal.OkHyps.hyps_of_inRange m hR hO
  refine ⟨_, Cert.KernelIdeal.Final.run m ρ hO hH hR, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  have hR' : Cert.Routed.InRange (m' (((0 : Dev Cert.ReferenceIdeal.nD).tc : Thread Cert.ReferenceIdeal.nD Cert.ReferenceIdeal.τ).loc Cert.ReferenceIdeal.main_arg1)) := by
    rw [(hagree 0).2.1]; exact hR
  rw [Cert.ReferenceIdeal.Read.val_main_v19_eq]
  unfold Cert.ReferenceIdeal.Read.val_main_v19
  rw [Cert.ReferenceIdeal.RefValue.pretanh_stage_eq _ _ _ _ hR', (hagree 0).1, (hagree 0).2.1, (hagree 0).2.2.1, (hagree 0).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
